-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S640000 .f32) (main_arg3 : FVec F S640000 .f32) (main_arg4 : FVec F S128x128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000 .f32 := Host.absf main_arg3
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S4000x128 : Shape := ⟨2, ![4000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S4000x1 : Shape := ⟨2, ![4000, 1]⟩
abbrev S40000 : Shape := ⟨1, ![40000]⟩
abbrev S40000x1 : Shape := ⟨2, ![40000, 1]⟩
abbrev S4000 : Shape := ⟨1, ![4000]⟩

abbrev nBuf : Space → Nat
  | .hbm => 59
  | .vmem => 34
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S40000x128, .f32⟩
  | .hbm, ⟨13, _⟩ => ⟨S40000x128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x1, .f32⟩
  | .hbm, ⟨37, _⟩ => ⟨S640000x1, .f32⟩
  | .hbm, ⟨38, _⟩ => ⟨S640000x128, .f32⟩
  | .hbm, ⟨39, _⟩ => ⟨S640000x128, .f32⟩
  | .hbm, ⟨40, _⟩ => ⟨S_, .f32⟩
  | .hbm, ⟨41, _⟩ => ⟨S40000x128, .f32⟩
  | .hbm, ⟨42, _⟩ => ⟨S640000x1, .i32⟩
  | .hbm, ⟨43, _⟩ => ⟨S40000x128, .f32⟩
  | .hbm, ⟨44, _⟩ => ⟨S_, .f32⟩
  | .hbm, ⟨45, _⟩ => ⟨S40000x128, .f32⟩
  | .hbm, ⟨46, _⟩ => ⟨S640000x1, .i32⟩
  | .hbm, ⟨47, _⟩ => ⟨S40000x128, .f32⟩
  | .hbm, ⟨48, _⟩ => ⟨S_, .f32⟩
  | .hbm, ⟨49, _⟩ => ⟨S640000, .f32⟩
  | .hbm, ⟨50, _⟩ => ⟨S_, .f32⟩
  | .hbm, ⟨51, _⟩ => ⟨S40000, .f32⟩
  | .hbm, ⟨52, _⟩ => ⟨S640000x1, .i32⟩
  | .hbm, ⟨53, _⟩ => ⟨S40000, .f32⟩
  | .hbm, ⟨54, _⟩ => ⟨S40000x1, .f32⟩
  | .hbm, ⟨55, _⟩ => ⟨S1x128, .f32⟩
  | .hbm, ⟨56, _⟩ => ⟨S1x128, .f32⟩
  | .hbm, ⟨57, _⟩ => ⟨S40000x128, .f32⟩
  | .hbm, ⟨58, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S4000x1, .f32⟩
  | .local _ .vmem, ⟨17, _⟩ => ⟨S4000x1, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x1, .f32⟩
  | .local _ .vmem, ⟨27, _⟩ => ⟨S4000x1, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37_0 : Ref sig .tc := ⟨.hbm, 57, rfl⟩
abbrev main_v37_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S640000x1 : S640000.ShapeCasts S640000x1
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S40000x128 : S_.BroadcastsInDim S40000x128 (![] : Fin 0 → Fin S40000x128.rank)
  bcast_S_S40000 : S_.BroadcastsInDim S40000 (![] : Fin 0 → Fin S40000.rank)
  shapeCasts_S40000_S40000x1 : S40000.ShapeCasts S40000x1
  reduces_S4000x128_S4000 : S4000x128.Reduces [1] S4000
  shapeCasts_S4000_S4000x1 : S4000.ShapeCasts S4000x1
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S640000x1.size a
  hwx1_2 : ∀ i : grid1.Coords, EltTy.bits .f32 = 32 ∨ (Rect.block (s := S640000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S640000x1.size a
  hwx1_3 : ∀ i : grid1.Coords, EltTy.bits .f32 = 32 ∨ (Rect.block (s := S640000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S640000x128.size a
  hwx1_4 : ∀ i : grid1.Coords, EltTy.bits .f32 = 32 ∨ (Rect.block (s := S640000x128) S4000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S640000x128.size a
  hwx1_5 : ∀ i : grid1.Coords, EltTy.bits .f32 = 32 ∨ (Rect.block (s := S640000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S40000x1.size a
  hwx2_2 : ∀ i : grid2.Coords, EltTy.bits .f32 = 32 ∨ (Rect.block (s := S40000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S40000x128.size a
  hwx2_5 : ∀ i : grid2.Coords, EltTy.bits .f32 = 32 ∨ (Rect.block (s := S40000x128) S4000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S40000x128.size a
  hwx2_6 : ∀ i : grid2.Coords, EltTy.bits .f32 = 32 ∨ (Rect.block (s := S40000x128) S4000x128.size (cc2_transform_6 i) (hinb2_6 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23_1) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37_0) S4000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v37_1) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S1x128 : Shape := ⟨2, ![1, 128]⟩
abbrev S1x640000 : Shape := ⟨2, ![1, 640000]⟩
abbrev S640000x1 : Shape := ⟨2, ![640000, 1]⟩
abbrev S_ : Shape := ⟨0, ![]⟩
abbrev S640000x128 : Shape := ⟨2, ![640000, 128]⟩
abbrev S40000 : Shape := ⟨1, ![40000]⟩
abbrev S40000x1 : Shape := ⟨2, ![40000, 1]⟩

abbrev nBuf : Space → Nat
  | .hbm => 105
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S40000x128, .f32⟩
  | .hbm, ⟨11, _⟩ => ⟨S1x128, .f32⟩
  | .hbm, ⟨12, _⟩ => ⟨S40000x128, .f32⟩
  | .hbm, ⟨13, _⟩ => ⟨S40000x128, .f32⟩
  | .hbm, ⟨14, _⟩ => ⟨S40000x128, .f32⟩
  | .hbm, ⟨15, _⟩ => ⟨S1x128, .f32⟩
  | .hbm, ⟨16, _⟩ => ⟨S40000x128, .f32⟩
  | .hbm, ⟨17, _⟩ => ⟨S40000x128, .f32⟩
  | .hbm, ⟨18, _⟩ => ⟨S40000x128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S640000x1, .f32⟩
  | .hbm, ⟨24, _⟩ => ⟨S640000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S640000x1, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S_, .f32⟩
  | .hbm, ⟨57, _⟩ => ⟨S40000x128, .f32⟩
  | .hbm, ⟨58, _⟩ => ⟨S640000x1, .i32⟩
  | .hbm, ⟨59, _⟩ => ⟨S40000x128, .f32⟩
  | .hbm, ⟨60, _⟩ => ⟨S_, .f32⟩
  | .hbm, ⟨61, _⟩ => ⟨S640000, .f32⟩
  | .hbm, ⟨62, _⟩ => ⟨S_, .f32⟩
  | .hbm, ⟨63, _⟩ => ⟨S40000, .f32⟩
  | .hbm, ⟨64, _⟩ => ⟨S640000x1, .i32⟩
  | .hbm, ⟨65, _⟩ => ⟨S40000, .f32⟩
  | .hbm, ⟨66, _⟩ => ⟨S_, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x1, .f32⟩
  | .hbm, ⟨74, _⟩ => ⟨S40000x128, .f32⟩
  | .hbm, ⟨75, _⟩ => ⟨S40000x128, .f32⟩
  | .hbm, ⟨76, _⟩ => ⟨S_, .f32⟩
  | .hbm, ⟨77, _⟩ => ⟨S40000, .f32⟩
  | .hbm, ⟨78, _⟩ => ⟨S40000x1, .f32⟩
  | .hbm, ⟨79, _⟩ => ⟨S_, .f32⟩
  | .hbm, ⟨80, _⟩ => ⟨S40000x1, .f32⟩
  | .hbm, ⟨81, _⟩ => ⟨S40000x1, .f32⟩
  | .hbm, ⟨82, _⟩ => ⟨S40000x128, .f32⟩
  | .hbm, ⟨83, _⟩ => ⟨S40000x128, .f32⟩
  | .hbm, ⟨84, _⟩ => ⟨S40000x128, .f32⟩
  | .hbm, ⟨85, _⟩ => ⟨S_, .f32⟩
  | .hbm, ⟨86, _⟩ => ⟨S40000, .f32⟩
  | .hbm, ⟨87, _⟩ => ⟨S40000x1, .f32⟩
  | .hbm, ⟨88, _⟩ => ⟨S_, .f32⟩
  | .hbm, ⟨89, _⟩ => ⟨S40000x1, .f32⟩
  | .hbm, ⟨90, _⟩ => ⟨S40000x1, .f32⟩
  | .hbm, ⟨91, _⟩ => ⟨S40000x128, .f32⟩
  | .hbm, ⟨92, _⟩ => ⟨S40000x128, .f32⟩
  | .hbm, ⟨93, _⟩ => ⟨S_, .f32⟩
  | .hbm, ⟨94, _⟩ => ⟨S40000x1, .f32⟩
  | .hbm, ⟨95, _⟩ => ⟨S40000x1, .f32⟩
  | .hbm, ⟨96, _⟩ => ⟨S40000x1, .f32⟩
  | .hbm, ⟨97, _⟩ => ⟨S40000x128, .f32⟩
  | .hbm, ⟨98, _⟩ => ⟨S40000x128, .f32⟩
  | .hbm, ⟨99, _⟩ => ⟨S1x128, .f32⟩
  | .hbm, ⟨100, _⟩ => ⟨S40000x128, .f32⟩
  | .hbm, ⟨101, _⟩ => ⟨S40000x128, .f32⟩
  | .hbm, ⟨102, _⟩ => ⟨S1x128, .f32⟩
  | .hbm, ⟨103, _⟩ => ⟨S40000x128, .f32⟩
  | .hbm, ⟨104, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_cst_8 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S40000_d1 : S40000x128.ReducesTo [1] S40000
  h_S_ : 0 < S_.numel
  bcast_S_S40000x1 : S_.BroadcastsInDim S40000x1 (![] : Fin 0 → Fin S40000x1.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.Spec.lean ====
/-
  The mathematics of the layer, stage by stage, as functions of whole arrays on the extended reals, read index by
  index. N = 40000 nodes, E = 640000 edges, D = 128 features.

    affine      h(p, q)  = (Σ_k x(p, k) · w(k, q)) + b(0, q)                      node features through a linear map
    expAffine   v(p, q)  = exp (affine)                                           the variance head
    msgMean     m(e, q)  = hm(e, q) · ωm(e)                                       a message's mean along an edge
    msgVar      s(e, q)  = (ωm(e) · ωm(e)) · hv(e, q) + (hm(e, q) · hm(e, q)) · ωv(e)
    clampDeg    d(p)     = max 1 deg(p)
    scaled      o(p, q)  = a(p, q) / d(p)                                          the mean aggregate over the degree
    rowMean     μ(p)     = (Σ_q o(p, q)) · 2⁻⁷                                     (2⁻⁷ = 1/128, an exact binary fraction)
    centred     δ(p, q)  = o(p, q) − μ(p)
    rowVar      σ²(p)    = (Σ_q δ(p, q)²) · 2⁻⁷
    normMean    y(p, q)  = (δ(p, q) · rsqrt (σ²(p) + ε)) · γ(0, q) + β(0, q)        layer normalisation of the mean
    normVar     z(p, q)  = a(p, q) / (d(p) · d(p))                                 the variance aggregate over degree²

  Column vectors are [·, 1] arrays and row vectors [1, ·] arrays, as the kernels see them.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev NodeMat : Shape := ⟨2, ![40000, 128]⟩
abbrev NodeCol : Shape := ⟨2, ![40000, 1]⟩
abbrev EdgeMat : Shape := ⟨2, ![640000, 128]⟩
abbrev EdgeCol : Shape := ⟨2, ![640000, 1]⟩
abbrev Wt : Shape := ⟨2, ![128, 128]⟩
abbrev Row : Shape := ⟨2, ![1, 128]⟩

/-- The word of 1.0. -/
abbrev one : EReal := Ideal.ofBits .f32 0x3F800000#32
/-- The word of 2⁻⁷ = 1/128. -/
abbrev inv128 : EReal := Ideal.ofBits .f32 0x3C000000#32
/-- The word of 128.0. -/
abbrev c128 : EReal := Ideal.ofBits .f32 0x43000000#32
/-- The word of the layer normalisation's ε (the float nearest 1e-5). -/
abbrev eps : EReal := Ideal.ofBits .f32 0x3727C5AC#32

/-! ## Stage 1: the two linear heads -/

def affineAt (x : FVec Ideal NodeMat .f32) (w : FVec Ideal Wt .f32) (b : FVec Ideal Row .f32) (p : Fin 40000) (q : Fin 128) : EReal :=
  (∑ k : Fin 128, x (ix2 p k) * w (ix2 k q)) + b (ix2 0 q)

def affine (x : FVec Ideal NodeMat .f32) (w : FVec Ideal Wt .f32) (b : FVec Ideal Row .f32) : FVec Ideal NodeMat .f32 :=
  fun i => affineAt x w b (i 0) (i 1)

def expAffine (x : FVec Ideal NodeMat .f32) (w : FVec Ideal Wt .f32) (b : FVec Ideal Row .f32) : FVec Ideal NodeMat .f32 :=
  fun i => Ideal.exp (affineAt x w b (i 0) (i 1))

theorem affine_ix2 (x : FVec Ideal NodeMat .f32) (w : FVec Ideal Wt .f32) (b : FVec Ideal Row .f32) (p : Fin 40000) (q : Fin 128) :
    affine x w b (ix2 p q) = affineAt x w b p q := rfl

theorem expAffine_ix2 (x : FVec Ideal NodeMat .f32) (w : FVec Ideal Wt .f32) (b : FVec Ideal Row .f32) (p : Fin 40000) (q : Fin 128) :
    expAffine x w b (ix2 p q) = Ideal.exp (affineAt x w b p q) := rfl

/-! ## Stage 2: the messages along the edges -/

def msgMean (hm : FVec Ideal EdgeMat .f32) (ωm : FVec Ideal EdgeCol .f32) : FVec Ideal EdgeMat .f32 :=
  fun i => hm (ix2 (i 0) (i 1)) * ωm (ix2 (i 0) 0)

def msgVar (hm hv : FVec Ideal EdgeMat .f32) (ωm ωv : FVec Ideal EdgeCol .f32) : FVec Ideal EdgeMat .f32 :=
  fun i => (ωm (ix2 (i 0) 0) * ωm (ix2 (i 0) 0)) * hv (ix2 (i 0) (i 1)) + (hm (ix2 (i 0) (i 1)) * hm (ix2 (i 0) (i 1))) * ωv (ix2 (i 0) 0)

theorem msgMean_ix2 (hm : FVec Ideal EdgeMat .f32) (ωm : FVec Ideal EdgeCol .f32) (e : Fin 640000) (q : Fin 128) :
    msgMean hm ωm (ix2 e q) = hm (ix2 e q) * ωm (ix2 e 0) := rfl

theorem msgVar_ix2 (hm hv : FVec Ideal EdgeMat .f32) (ωm ωv : FVec Ideal EdgeCol .f32) (e : Fin 640000) (q : Fin 128) :
    msgVar hm hv ωm ωv (ix2 e q) = (ωm (ix2 e 0) * ωm (ix2 e 0)) * hv (ix2 e q) + (hm (ix2 e q) * hm (ix2 e q)) * ωv (ix2 e 0) := rfl

/-! ## Stage 3: division by the clamped degree, and the layer normalisation of the mean -/

def clampDeg (deg : FVec Ideal NodeCol .f32) (p : Fin 40000) : EReal := max one (deg (ix2 p 0))

def scaled (a : FVec Ideal NodeMat .f32) (deg : FVec Ideal NodeCol .f32) (p : Fin 40000) (q : Fin 128) : EReal :=
  Ideal.div (a (ix2 p q)) (clampDeg deg p)

def rowMean (a : FVec Ideal NodeMat .f32) (deg : FVec Ideal NodeCol .f32) (p : Fin 40000) : EReal :=
  (∑ q : Fin 128, scaled a deg p q) * inv128

def centred (a : FVec Ideal NodeMat .f32) (deg : FVec Ideal NodeCol .f32) (p : Fin 40000) (q : Fin 128) : EReal :=
  scaled a deg p q - rowMean a deg p

def rowVar (a : FVec Ideal NodeMat .f32) (deg : FVec Ideal NodeCol .f32) (p : Fin 40000) : EReal :=
  (∑ q : Fin 128, centred a deg p q * centred a deg p q) * inv128

def normMeanAt (a : FVec Ideal NodeMat .f32) (deg : FVec Ideal NodeCol .f32) (γ β : FVec Ideal Row .f32) (p : Fin 40000) (q : Fin 128) : EReal :=
  (centred a deg p q * Ideal.rsqrt (rowVar a deg p + eps)) * γ (ix2 0 q) + β (ix2 0 q)

def normMean (a : FVec Ideal NodeMat .f32) (deg : FVec Ideal NodeCol .f32) (γ β : FVec Ideal Row .f32) : FVec Ideal NodeMat .f32 :=
  fun i => normMeanAt a deg γ β (i 0) (i 1)

def normVarAt (a : FVec Ideal NodeMat .f32) (deg : FVec Ideal NodeCol .f32) (p : Fin 40000) (q : Fin 128) : EReal :=
  Ideal.div (a (ix2 p q)) (clampDeg deg p * clampDeg deg p)

def normVar (a : FVec Ideal NodeMat .f32) (deg : FVec Ideal NodeCol .f32) : FVec Ideal NodeMat .f32 :=
  fun i => normVarAt a deg (i 0) (i 1)

theorem normMean_ix2 (a : FVec Ideal NodeMat .f32) (deg : FVec Ideal NodeCol .f32) (γ β : FVec Ideal Row .f32) (p : Fin 40000) (q : Fin 128) :
    normMean a deg γ β (ix2 p q) = normMeanAt a deg γ β p q := rfl

theorem normVar_ix2 (a : FVec Ideal NodeMat .f32) (deg : FVec Ideal NodeCol .f32) (p : Fin 40000) (q : Fin 128) :
    normVar a deg (ix2 p q) = normVarAt a deg p q := rfl

/-! ## The one law that joins the two sides: dividing by 128 is multiplying by 2⁻⁷, on every extended real -/

theorem c128_eq : c128 = ((128 : ℝ) : EReal) := by
  simp [Ideal.ofBits, Ideal.ieee, -EReal.coe_mul]; norm_num

theorem inv128_eq : inv128 = ((1 / 128 : ℝ) : EReal) := by
  simp [Ideal.ofBits, Ideal.ieee, -EReal.coe_mul]; norm_num

theorem div_c128 (x : EReal) : Ideal.div x c128 = x * inv128 := by
  rw [c128_eq, inv128_eq]; exact Ideal.div_coe (by norm_num) x

end Cert.Spec

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Region0.lean ====
/-
  Stage 1 on the device: ten grid points, point t holding rows 4000·t … 4000·t + 3999 of the node features; the two
  weight matrices and the two bias rows are whole at every point. What point t writes back is rows 4000·t … of
  x·w + b (a matrix product into a zero accumulator, so the plain sum over the shared axis) and of exp (x·w' + b');
  the ten blocks tile the array, so after the last point the two result arrays are those functions whole.
-/
import proofs.«171887_j68693706932589_1_alg».proof.Proof.Gen.KernelIdeal.Frame
import proofs.«171887_j68693706932589_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«171887_j68693706932589_1_alg».proof.Proof.LibPlainDot

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One block's arithmetic

A block is 4000 consecutive rows of the node features, all 128 columns. On the extended reals the change of float
format before each product is the identity, and a product into a zero accumulator is the plain sum over the 128
shared coordinates; the bias row is repeated down the 4000 rows. So an entry (p, q) of what a point stores depends
on row p of its feature block, column q of the weights and entry q of the bias row, and on nothing else. -/

/-- Both products contract the left operand's columns with the right operand's rows, and have no batch axes. -/
theorem dims_plain : PlainDot.IsPlain (R := 4000) (K := 128) (C := 128) dot_S4000x128_S128x128_S4000x128_1_0_0_1_n_n :=
  ⟨rfl, rfl, rfl, rfl, rfl, rfl⟩

/-- The bias row repeated down the block's rows, read at (p, q), is the row's entry q. -/
theorem biasRows_apply (b : FVec Ideal S1x128 .f32) (hs : S1x128.ShapeCasts S1x128) (hb : S1x128.Broadcasts S4000x128)
    (p : Fin 4000) (q : Fin 128) :
    broadcastTo S4000x128 (shapeCast S1x128 b hs) hb (ix2 p q) = b (ix2 0 q) := by
  rw [shapeCast_self]
  refine broadcastTo_apply b hb (ix2 p q) (ix2 0 q) fun a => ?_
  match a with
  | ⟨0, _⟩ => rfl
  | ⟨1, _⟩ => rfl

/-- The first head's block at (p, q): row p of the features against column q of the weights, plus the bias' entry q. -/
theorem linBlock_apply (x : FVec Ideal S4000x128 .f32) (w : FVec Ideal S128x128 .f32) (b : FVec Ideal S1x128 .f32)
    (p : Fin 4000) (q : Fin 128) :
    k0_pay2 (F := Ideal) x w b (ix2 p q) = (∑ k : Fin 128, x (ix2 p k) * w (ix2 k q)) + b (ix2 0 q) := by
  unfold k0_pay2 k0_pay1
  exact congrArg₂ (· + ·) (PlainDot.matmul_zero_apply dims_plain none _ _ p q) (biasRows_apply b _ _ p q)

/-- The second head's block at (p, q): the exponential of the same affine form in the second weights and bias. -/
theorem expBlock_apply (x : FVec Ideal S4000x128 .f32) (w : FVec Ideal S128x128 .f32) (b : FVec Ideal S1x128 .f32)
    (p : Fin 4000) (q : Fin 128) :
    k0_pay3 (F := Ideal) x w b (ix2 p q) = Ideal.exp ((∑ k : Fin 128, x (ix2 p k) * w (ix2 k q)) + b (ix2 0 q)) := by
  unfold k0_pay3 k0_pay1
  exact congrArg Ideal.exp (congrArg₂ (· + ·) (PlainDot.matmul_zero_apply dims_plain none _ _ p q) (biasRows_apply b _ _ p q))

/-! ## From a point's block to rows of the arrays

Point t's feature block and its two result blocks are block row t (rows 4000·t … 4000·t + 3999, all columns); the
weights and the bias rows are the one block there is. A block's coordinate in its array is the block's index times
the block's extent plus the coordinate inside the block. -/

theorem zeroOffsets : (![0, 0] : Fin 2 → Nat) = fun _ => 0 := funext fun a => by fin_cases a <;> rfl

/-- The index maps over the ten points: the features and both results move down one block row per point; the
    weights and bias rows stay at block (0, 0). -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ t.val < 10 :=
  (by decide +kernel : ∀ t : Fin grid0.N, _)

/-- Every block row of the two results is some point's. -/
theorem blockRow_onto : ∀ n : Fin 10, ∃ t : Fin cfg0.N, win0_5.index t = ![n.val, 0] ∧ win0_6.index t = ![n.val, 0] :=
  (by decide +kernel : ∀ n : Fin 10, ∃ t : Fin grid0.N, win0_5.index t = ![n.val, 0] ∧ win0_6.index t = ![n.val, 0])

/-- Point t's feature block at (p, k) is the feature array at row 4000·t + p, column k. -/
theorem featBlock_apply (c : Dev nD) (t : Fin cfg0.N) (p : Fin 4000) (k : Fin 128) (r : Fin 40000)
    (hr : r.val = t.val * 4000 + p.val) :
    (iblk0 V c 0 t : FVec Ideal S4000x128 .f32) (ix2 p k)
      = (V c (Pipeline.arrRef spec0 0) : FVec Ideal Cert.Spec.NodeMat .f32) (ix2 r k) := by
  obtain ⟨e00, e01, -⟩ := blockIndex_facts t
  unfold iblk0
  show (V c (Pipeline.arrRef spec0 0) : FVec Ideal Cert.Spec.NodeMat .f32) (((cfg0.win 0).blk t).view.emb (ix2 p k)) = _
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- The first weights' block is the first weights' array. -/
theorem wt1Block_apply (c : Dev nD) (t : Fin cfg0.N) (k q : Fin 128) :
    (iblk0 V c 1 t : FVec Ideal S128x128 .f32) (ix2 k q)
      = (V c (Pipeline.arrRef spec0 1) : FVec Ideal Cert.Spec.Wt .f32) (ix2 k q) := by
  obtain ⟨-, -, e10, e11, -⟩ := blockIndex_facts t
  unfold iblk0
  show (V c (Pipeline.arrRef spec0 1) : FVec Ideal Cert.Spec.Wt .f32) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The first bias' block is the first bias row. -/
theorem bias1Block_apply (c : Dev nD) (t : Fin cfg0.N) (q : Fin 128) :
    (iblk0 V c 2 t : FVec Ideal S1x128 .f32) (ix2 0 q)
      = (V c (Pipeline.arrRef spec0 2) : FVec Ideal Cert.Spec.Row .f32) (ix2 0 q) := by
  obtain ⟨-, -, -, -, e20, e21, -⟩ := blockIndex_facts t
  unfold iblk0
  show (V c (Pipeline.arrRef spec0 2) : FVec Ideal Cert.Spec.Row .f32) (((cfg0.win 2).blk t).view.emb (ix2 0 q)) = _
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The second weights' block is the second weights' array. -/
theorem wt2Block_apply (c : Dev nD) (t : Fin cfg0.N) (k q : Fin 128) :
    (iblk0 V c 3 t : FVec Ideal S128x128 .f32) (ix2 k q)
      = (V c (Pipeline.arrRef spec0 3) : FVec Ideal Cert.Spec.Wt .f32) (ix2 k q) := by
  obtain ⟨-, -, -, -, -, -, e30, e31, -⟩ := blockIndex_facts t
  unfold iblk0
  show (V c (Pipeline.arrRef spec0 3) : FVec Ideal Cert.Spec.Wt .f32) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The second bias' block is the second bias row. -/
theorem bias2Block_apply (c : Dev nD) (t : Fin cfg0.N) (q : Fin 128) :
    (iblk0 V c 4 t : FVec Ideal S1x128 .f32) (ix2 0 q)
      = (V c (Pipeline.arrRef spec0 4) : FVec Ideal Cert.Spec.Row .f32) (ix2 0 q) := by
  obtain ⟨-, -, -, -, -, -, -, -, e40, e41, -⟩ := blockIndex_facts t
  unfold iblk0
  show (V c (Pipeline.arrRef spec0 4) : FVec Ideal Cert.Spec.Row .f32) (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- A whole-array function read through the first result's block of point t, at (p, q): the function at row
    4000·t + p, column q. -/
theorem linRows_read (G : FVec Ideal Cert.Spec.NodeMat .f32) (t : Fin cfg0.N) (p : Fin 4000) (q : Fin 128) (r : Fin 40000)
    (hr : r.val = t.val * 4000 + p.val) :
    (((cfg0.win 5).blk t).view.read (Elt Ideal) G : FVec Ideal S4000x128 .f32) (ix2 p q) = G (ix2 r q) := by
  obtain ⟨-, -, -, -, -, -, -, -, -, -, e50, e51, -⟩ := blockIndex_facts t
  show G (((cfg0.win 5).blk t).view.emb (ix2 p q)) = _
  refine congrArg G (funext fun a => Fin.ext ?_)
  match a with
  | ⟨0, _⟩ => show win0_5.index t (0 : Fin 2) * 4000 + 1 * p.val = r.val; omega
  | ⟨1, _⟩ => show win0_5.index t (1 : Fin 2) * 128 + 1 * q.val = q.val; omega

/-- The same through the second result's block. -/
theorem expRows_read (G : FVec Ideal Cert.Spec.NodeMat .f32) (t : Fin cfg0.N) (p : Fin 4000) (q : Fin 128) (r : Fin 40000)
    (hr : r.val = t.val * 4000 + p.val) :
    (((cfg0.win 6).blk t).view.read (Elt Ideal) G : FVec Ideal S4000x128 .f32) (ix2 p q) = G (ix2 r q) := by
  obtain ⟨-, -, -, -, -, -, -, -, -, -, -, -, e60, e61, -⟩ := blockIndex_facts t
  show G (((cfg0.win 6).blk t).view.emb (ix2 p q)) = _
  refine congrArg G (funext fun a => Fin.ext ?_)
  match a with
  | ⟨0, _⟩ => show win0_6.index t (0 : Fin 2) * 4000 + 1 * p.val = r.val; omega
  | ⟨1, _⟩ => show win0_6.index t (1 : Fin 2) * 128 + 1 * q.val = q.val; omega

/-! ## What a point writes back

Point t stores, in its first result buffer, the affine form of its feature block; its feature block is rows
4000·t … of the features, so what it writes back is rows 4000·t … of the affine form of the whole features. The same
with the exponential on top for the second result. -/

/-- Point t writes back block row t of x·w + b. -/
theorem linRows_written (c : Dev nD) (t : Fin cfg0.N) :
    (dat0 (F := Ideal) V c).flushed 5 t = ((cfg0.win 5).blk t).view.read (Elt Ideal)
      (Cert.Spec.affine (V c (Pipeline.arrRef spec0 0)) (V c (Pipeline.arrRef spec0 1)) (V c (Pipeline.arrRef spec0 2))) := by
  show (cfg0.win 5).cut (grid0.coords t) ((dat0 V c).after 5 t) = _
  rw [after0_5]
  unfold out0_5
  rw [View.canon_unit_zero zeroOffsets]
  simp only [View.ld_unit_zero (S := S4000x128) zeroOffsets, View.ld_unit_zero (S := S128x128) zeroOffsets,
    View.ld_unit_zero (S := S1x128) zeroOffsets]
  have ht : t.val < 10 := (blockIndex_facts t).2.2.2.2.2.2.2.2.2.2.2.2.2.2
  refine funext fun (j : S4000x128.Idx) => ?_
  obtain ⟨p, q, rfl⟩ : ∃ (p : Fin 4000) (q : Fin 128), j = ix2 p q := ⟨j 0, j 1, eq_ix2 j⟩
  have hp : p.val < 4000 := p.isLt
  refine (linBlock_apply (iblk0 V c 0 t) (iblk0 V c 1 t) (iblk0 V c 2 t) p q).trans ?_
  refine Eq.trans ?_ (linRows_read _ t p q ⟨t.val * 4000 + p.val, by omega⟩ rfl).symm
  rw [Cert.Spec.affine_ix2]
  unfold Cert.Spec.affineAt
  rw [bias1Block_apply V c t q]
  refine congrArg (· + _) (Finset.sum_congr rfl fun k _ => ?_)
  rw [featBlock_apply V c t p k ⟨t.val * 4000 + p.val, by omega⟩ rfl, wt1Block_apply V c t k q]

/-- Point t writes back block row t of exp (x·w' + b'). -/
theorem expRows_written (c : Dev nD) (t : Fin cfg0.N) :
    (dat0 (F := Ideal) V c).flushed 6 t = ((cfg0.win 6).blk t).view.read (Elt Ideal)
      (Cert.Spec.expAffine (V c (Pipeline.arrRef spec0 0)) (V c (Pipeline.arrRef spec0 3)) (V c (Pipeline.arrRef spec0 4))) := by
  show (cfg0.win 6).cut (grid0.coords t) ((dat0 V c).after 6 t) = _
  rw [after0_6]
  unfold out0_6
  rw [View.canon_unit_zero zeroOffsets]
  simp only [View.ld_unit_zero (S := S4000x128) zeroOffsets, View.ld_unit_zero (S := S128x128) zeroOffsets,
    View.ld_unit_zero (S := S1x128) zeroOffsets]
  have ht : t.val < 10 := (blockIndex_facts t).2.2.2.2.2.2.2.2.2.2.2.2.2.2
  refine funext fun (j : S4000x128.Idx) => ?_
  obtain ⟨p, q, rfl⟩ : ∃ (p : Fin 4000) (q : Fin 128), j = ix2 p q := ⟨j 0, j 1, eq_ix2 j⟩
  have hp : p.val < 4000 := p.isLt
  refine (expBlock_apply (iblk0 V c 0 t) (iblk0 V c 3 t) (iblk0 V c 4 t) p q).trans ?_
  refine Eq.trans ?_ (expRows_read _ t p q ⟨t.val * 4000 + p.val, by omega⟩ rfl).symm
  rw [Cert.Spec.expAffine_ix2]
  unfold Cert.Spec.affineAt
  rw [bias2Block_apply V c t q]
  refine congrArg (fun s => Ideal.exp (s + _)) (Finset.sum_congr rfl fun k _ => ?_)
  rw [featBlock_apply V c t p k ⟨t.val * 4000 + p.val, by omega⟩ rfl, wt2Block_apply V c t k q]

/-! ## The ten blocks tile the array

An index (r, q) of a result array lies in point t's block exactly when 4000·t ≤ r < 4000·t + 4000 (every column is
in); so it lies in the block of the point whose block row is r / 4000. -/

/-- An index is in point t's block of the first result iff each coordinate is in the block's range on its axis. -/
theorem mem_linBlock (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v2_0).slice (win0_5.rect t)).set ↔ _
  rw [View.set_slice_whole, Rect.mem_set_unit]
  exact Iff.rfl

/-- The same for the second result. -/
theorem mem_expBlock (t : Fin cfg0.N) (i : S40000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v2_1).slice (win0_6.rect t)).set ↔ _
  rw [View.set_slice_whole, Rect.mem_set_unit]
  exact Iff.rfl

/-- Every index of the first result is in the block of some point that writes back: row r in block row r / 4000. -/
theorem linBlocks_cover (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht, -⟩ := blockRow_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_linBlock]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The same for the second result. -/
theorem expBlocks_cover (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, -, ht⟩ := blockRow_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_expBlock]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-! ## The two result arrays after the last point -/

/-- After the first launch its first result array is x·w + b of the arrays the launch found. -/
theorem hmean_eq (c : Dev nD) :
    (dat0 (F := Ideal) V c).arrAt 5 cfg0.N
      = Cert.Spec.affine (V c (Pipeline.arrRef spec0 0)) (V c (Pipeline.arrRef spec0 1)) (V c (Pipeline.arrRef spec0 2)) :=
  (dat0 (F := Ideal) V c).arrAt_eq_of_cover 5 _ (fun t _ => linRows_written V c t) (fun i => linBlocks_cover i)

/-- After the first launch its second result array is exp (x·w' + b') of the arrays the launch found. -/
theorem hvar_eq (c : Dev nD) :
    (dat0 (F := Ideal) V c).arrAt 6 cfg0.N
      = Cert.Spec.expAffine (V c (Pipeline.arrRef spec0 0)) (V c (Pipeline.arrRef spec0 3)) (V c (Pipeline.arrRef spec0 4)) :=
  (dat0 (F := Ideal) V c).arrAt_eq_of_cover 6 _ (fun t _ => expRows_written V c t) (fun i => expBlocks_cover i)

end Cert.KernelIdeal.Region0

end
-- ==== Proof.Region1.lean ====
/-
  Stage 2 on the device: 160 grid points, point t holding edges 4000·t … 4000·t + 3999: the gathered means and variances
  of the edges' source nodes, and the two edge-weight columns. The body is pointwise in the edge and the feature, the
  columns spread along the features; the 160 blocks tile the edge axis.

  The road of this module. An entry (p, q) of what a point stores depends on row p of its four input blocks only: on
  the two feature rows at (p, q) and on the two weight columns at (p, 0). Row p of the block of point t is edge
  4000·t + p of the whole array, for every window alike, so what point t writes back is block t of the stage function
  of the four whole arrays. Every edge e lies in the block of point e / 4000, hence the blocks fill the result arrays
  and these hold the stage functions. No law of arithmetic is needed: both sides are the same products and the same sum,
  in the same order.
-/
import proofs.«171887_j68693706932589_1_alg».proof.Proof.Gen.KernelIdeal.Frame
import proofs.«171887_j68693706932589_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One entry of what a point stores -/

/-- The body reads and writes each staging buffer whole, from its corner (0, 0). -/
theorem cornerOffsets : (![0, 0] : Fin 2 → Nat) = fun _ => 0 := funext fun a => by fin_cases a <;> rfl

/-- A column [a, 1] spread along b features reads, at (p, q), the column's entry of row p. -/
theorem column_spread {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The first store at (p, q): the source's mean there times the mean weight of row p. -/
theorem meanStore_apply (x0 : Vec Ideal S4000x128 .f32) (x2 : Vec Ideal S4000x1 .f32) (p : Fin 4000) (q : Fin 128) :
    k1_pay3 x0 x2 (ix2 p q) = x0 (ix2 p q) * x2 (ix2 p 0) := by
  unfold k1_pay3 k1_pay1 k1_pay2
  rw [mulf_apply, shapeCast_self, shapeCast_self, column_spread]

/-- The second store at (p, q): the squared mean weight of row p times the source's variance there, plus the squared
    source's mean there times the variance weight of row p. -/
theorem varStore_apply (x0 x1 : Vec Ideal S4000x128 .f32) (x2 x3 : Vec Ideal S4000x1 .f32) (p : Fin 4000) (q : Fin 128) :
    k1_pay4 x0 x1 x2 x3 (ix2 p q) = (x2 (ix2 p 0) * x2 (ix2 p 0)) * x1 (ix2 p q) + (x0 (ix2 p q) * x0 (ix2 p q)) * x3 (ix2 p 0) := by
  unfold k1_pay4 k1_pay1 k1_pay2
  simp only [shapeCast_self]
  rw [addf_apply, mulf_apply, mulf_apply, mulf_apply, column_spread, column_spread, mulf_apply]

/-! ## A block of rows against the whole arrays

  Let e send a block's row to its edge. If row p of each input block is edge e p of its whole array, then row p of what
  the body stores is edge e p of the stage function of the whole arrays. -/

/-- The first store of a block whose rows are the edges e p is the messages' means at those edges. -/
theorem meanStore_of_rows (hm : FVec Ideal Cert.Spec.EdgeMat .f32) (ωm : FVec Ideal Cert.Spec.EdgeCol .f32)
    (x0 : Vec Ideal S4000x128 .f32) (x2 : Vec Ideal S4000x1 .f32) (e : Fin 4000 → Fin 640000)
    (h0 : ∀ p q, x0 (ix2 p q) = hm (ix2 (e p) q)) (h2 : ∀ p, x2 (ix2 p 0) = ωm (ix2 (e p) 0))
    (p : Fin 4000) (q : Fin 128) :
    k1_pay3 x0 x2 (ix2 p q) = Cert.Spec.msgMean hm ωm (ix2 (e p) q) := by
  rw [meanStore_apply, Cert.Spec.msgMean_ix2, h0, h2]

/-- The second store of a block whose rows are the edges e p is the messages' variances at those edges. -/
theorem varStore_of_rows (hm hv : FVec Ideal Cert.Spec.EdgeMat .f32) (ωm ωv : FVec Ideal Cert.Spec.EdgeCol .f32)
    (x0 x1 : Vec Ideal S4000x128 .f32) (x2 x3 : Vec Ideal S4000x1 .f32) (e : Fin 4000 → Fin 640000)
    (h0 : ∀ p q, x0 (ix2 p q) = hm (ix2 (e p) q)) (h1 : ∀ p q, x1 (ix2 p q) = hv (ix2 (e p) q))
    (h2 : ∀ p, x2 (ix2 p 0) = ωm (ix2 (e p) 0)) (h3 : ∀ p, x3 (ix2 p 0) = ωv (ix2 (e p) 0))
    (p : Fin 4000) (q : Fin 128) :
    k1_pay4 x0 x1 x2 x3 (ix2 p q) = Cert.Spec.msgVar hm hv ωm ωv (ix2 (e p) q) := by
  rw [varStore_apply, Cert.Spec.msgVar_ix2, h0, h1, h2, h3]

/-! ## Which rows a point holds -/

/-- At point t every window, input or output, is on block (t, 0) of its array. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row p of the block of point t is edge 4000·t + p. -/
def edgeOf (t : Fin cfg1.N) (p : Fin 4000) : Fin 640000 :=
  ⟨t.val * 4000 + p.val, by have h : t.val < 160 := t.isLt.trans_eq N_1; have := p.isLt; omega⟩

/-! ## What a point writes back -/

/-- Point t writes back, into the first result, block t of the messages' means of the arrays the region found. -/
theorem meanWriteBack (c : Dev nD) (t : Fin cfg1.N) :
    (dat1 (F := Ideal) V c).flushed 4 t = ((cfg1.win 4).blk t).view.read (Elt Ideal)
      (Cert.Spec.msgMean (V c (Pipeline.arrRef spec1 0)) (V c (Pipeline.arrRef spec1 2))) := by
  show (cfg1.win 4).cut (grid1.coords t) ((dat1 V c).after 4 t) = _
  rw [after1_4]
  unfold out1_4
  rw [View.canon_unit_zero cornerOffsets]
  simp only [View.ld_unit_zero (S := S4000x128) cornerOffsets, View.ld_unit_zero (S := S4000x1) cornerOffsets]
  funext j
  obtain ⟨p, q, rfl⟩ : ∃ (p : Fin 4000) (q : Fin 128), j = ix2 p q := ⟨j 0, j 1, eq_ix2 j⟩
  obtain ⟨e00, e01, e10, e11, e20, e21, e30, e31, e40, e41, e50, e51⟩ := block_of_point t
  -- block t of any edge-by-feature array G, at row p, is G at edge 4000·t + p
  have hout : ∀ G : FVec Ideal Cert.Spec.EdgeMat .f32,
      ((cfg1.win 4).blk t).view.read (Elt Ideal) G (ix2 p q) = G (ix2 (edgeOf t p) q) := by
    intro G
    show G (((cfg1.win 4).blk t).view.emb (ix2 p q)) = _
    congr 1
    funext a; apply Fin.ext
    match a with
    | ⟨0, _⟩ => show win1_4.index t (0 : Fin 2) * 4000 + 1 * p.val = t.val * 4000 + p.val; omega
    | ⟨1, _⟩ => show win1_4.index t (1 : Fin 2) * 128 + 1 * q.val = q.val; omega
  refine (meanStore_of_rows (V c (Pipeline.arrRef spec1 0)) (V c (Pipeline.arrRef spec1 2)) (iblk1 V c 0 t) (iblk1 V c 2 t) (edgeOf t) ?_ ?_ p q).trans ?_
  · -- the source means' block: the same rows, all 128 features
    intro p q
    show V c (Pipeline.arrRef spec1 0) (((cfg1.win 0).blk t).view.emb (ix2 p q)) = _
    congr 1
    funext a; apply Fin.ext
    match a with
    | ⟨0, _⟩ => show win1_0.index t (0 : Fin 2) * 4000 + 1 * p.val = t.val * 4000 + p.val; omega
    | ⟨1, _⟩ => show win1_0.index t (1 : Fin 2) * 128 + 1 * q.val = q.val; omega
  · -- the mean weights' block: the same rows of the column
    intro p
    show V c (Pipeline.arrRef spec1 2) (((cfg1.win 2).blk t).view.emb (ix2 p 0)) = _
    congr 1
    funext a; apply Fin.ext
    match a with
    | ⟨0, _⟩ => show win1_2.index t (0 : Fin 2) * 4000 + 1 * p.val = t.val * 4000 + p.val; omega
    | ⟨1, _⟩ => show win1_2.index t (1 : Fin 2) * 1 + 1 * 0 = 0; omega
  · exact (hout (Cert.Spec.msgMean (V c (Pipeline.arrRef spec1 0)) (V c (Pipeline.arrRef spec1 2)))).symm

/-- Point t writes back, into the second result, block t of the messages' variances of the arrays the region found. -/
theorem varWriteBack (c : Dev nD) (t : Fin cfg1.N) :
    (dat1 (F := Ideal) V c).flushed 5 t = ((cfg1.win 5).blk t).view.read (Elt Ideal)
      (Cert.Spec.msgVar (V c (Pipeline.arrRef spec1 0)) (V c (Pipeline.arrRef spec1 1)) (V c (Pipeline.arrRef spec1 2)) (V c (Pipeline.arrRef spec1 3))) := by
  show (cfg1.win 5).cut (grid1.coords t) ((dat1 V c).after 5 t) = _
  rw [after1_5]
  unfold out1_5
  rw [View.canon_unit_zero cornerOffsets]
  simp only [View.ld_unit_zero (S := S4000x128) cornerOffsets, View.ld_unit_zero (S := S4000x1) cornerOffsets]
  funext j
  obtain ⟨p, q, rfl⟩ : ∃ (p : Fin 4000) (q : Fin 128), j = ix2 p q := ⟨j 0, j 1, eq_ix2 j⟩
  obtain ⟨e00, e01, e10, e11, e20, e21, e30, e31, e40, e41, e50, e51⟩ := block_of_point t
  -- block t of any edge-by-feature array G, at row p, is G at edge 4000·t + p
  have hout : ∀ G : FVec Ideal Cert.Spec.EdgeMat .f32,
      ((cfg1.win 5).blk t).view.read (Elt Ideal) G (ix2 p q) = G (ix2 (edgeOf t p) q) := by
    intro G
    show G (((cfg1.win 5).blk t).view.emb (ix2 p q)) = _
    congr 1
    funext a; apply Fin.ext
    match a with
    | ⟨0, _⟩ => show win1_5.index t (0 : Fin 2) * 4000 + 1 * p.val = t.val * 4000 + p.val; omega
    | ⟨1, _⟩ => show win1_5.index t (1 : Fin 2) * 128 + 1 * q.val = q.val; omega
  refine (varStore_of_rows (V c (Pipeline.arrRef spec1 0)) (V c (Pipeline.arrRef spec1 1)) (V c (Pipeline.arrRef spec1 2)) (V c (Pipeline.arrRef spec1 3))
    (iblk1 V c 0 t) (iblk1 V c 1 t) (iblk1 V c 2 t) (iblk1 V c 3 t) (edgeOf t) ?_ ?_ ?_ ?_ p q).trans ?_
  · -- the source means' block
    intro p q
    show V c (Pipeline.arrRef spec1 0) (((cfg1.win 0).blk t).view.emb (ix2 p q)) = _
    congr 1
    funext a; apply Fin.ext
    match a with
    | ⟨0, _⟩ => show win1_0.index t (0 : Fin 2) * 4000 + 1 * p.val = t.val * 4000 + p.val; omega
    | ⟨1, _⟩ => show win1_0.index t (1 : Fin 2) * 128 + 1 * q.val = q.val; omega
  · -- the source variances' block
    intro p q
    show V c (Pipeline.arrRef spec1 1) (((cfg1.win 1).blk t).view.emb (ix2 p q)) = _
    congr 1
    funext a; apply Fin.ext
    match a with
    | ⟨0, _⟩ => show win1_1.index t (0 : Fin 2) * 4000 + 1 * p.val = t.val * 4000 + p.val; omega
    | ⟨1, _⟩ => show win1_1.index t (1 : Fin 2) * 128 + 1 * q.val = q.val; omega
  · -- the mean weights' block
    intro p
    show V c (Pipeline.arrRef spec1 2) (((cfg1.win 2).blk t).view.emb (ix2 p 0)) = _
    congr 1
    funext a; apply Fin.ext
    match a with
    | ⟨0, _⟩ => show win1_2.index t (0 : Fin 2) * 4000 + 1 * p.val = t.val * 4000 + p.val; omega
    | ⟨1, _⟩ => show win1_2.index t (1 : Fin 2) * 1 + 1 * 0 = 0; omega
  · -- the variance weights' block
    intro p
    show V c (Pipeline.arrRef spec1 3) (((cfg1.win 3).blk t).view.emb (ix2 p 0)) = _
    congr 1
    funext a; apply Fin.ext
    match a with
    | ⟨0, _⟩ => show win1_3.index t (0 : Fin 2) * 4000 + 1 * p.val = t.val * 4000 + p.val; omega
    | ⟨1, _⟩ => show win1_3.index t (1 : Fin 2) * 1 + 1 * 0 = 0; omega
  · exact (hout (Cert.Spec.msgVar (V c (Pipeline.arrRef spec1 0)) (V c (Pipeline.arrRef spec1 1)) (V c (Pipeline.arrRef spec1 2)) (V c (Pipeline.arrRef spec1 3)))).symm

/-! ## The blocks fill the result arrays -/

/-- An index of the first result lies in the block of point t iff each coordinate lies in the block's range on its axis. -/
theorem mem_meanBlock (t : Fin cfg1.N) (i : S640000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v23_0).slice (win1_4.rect t)).set ↔ _
  rw [View.set_slice_whole, Rect.mem_set_unit]
  exact Iff.rfl

/-- The same for the second result. -/
theorem mem_varBlock (t : Fin cfg1.N) (i : S640000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v23_1).slice (win1_5.rect t)).set ↔ _
  rw [View.set_slice_whole, Rect.mem_set_unit]
  exact Iff.rfl

/-- Edge e is below 640000 = 160 · 4000, so e / 4000 is one of the 160 points. -/
theorem point_of_edge (e : Nat) (he : e < 640000) : ∃ t : Fin cfg1.N, t.val = e / 4000 :=
  ⟨⟨e / 4000, by rw [show cfg1.N = 160 from N_1]; omega⟩, rfl⟩

/-- Every entry (e, q) of the first result is written back by the point e / 4000. -/
theorem mean_filled (i : S640000x128.Idx) :
    ∃ t : Fin cfg1.N, (cfg1.win 4).flush t = true ∧ i ∈ ((cfg1.win 4).blk t).view.set := by
  have hi0 : (i 0).val < 640000 := (i 0).isLt
  have hi1 : (i 1).val < 128 := (i 1).isLt
  obtain ⟨t, ht⟩ := point_of_edge (i 0).val hi0
  obtain ⟨e00, e01, e10, e11, e20, e21, e30, e31, e40, e41, e50, e51⟩ := block_of_point t
  refine ⟨t, flush1_4 t, ?_⟩
  rw [mem_meanBlock]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- Every entry (e, q) of the second result is written back by the point e / 4000. -/
theorem var_filled (i : S640000x128.Idx) :
    ∃ t : Fin cfg1.N, (cfg1.win 5).flush t = true ∧ i ∈ ((cfg1.win 5).blk t).view.set := by
  have hi0 : (i 0).val < 640000 := (i 0).isLt
  have hi1 : (i 1).val < 128 := (i 1).isLt
  obtain ⟨t, ht⟩ := point_of_edge (i 0).val hi0
  obtain ⟨e00, e01, e10, e11, e20, e21, e30, e31, e40, e41, e50, e51⟩ := block_of_point t
  refine ⟨t, flush1_5 t, ?_⟩
  rw [mem_varBlock]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-! ## The two result arrays -/

/-- After the second launch its first result array is the messages' means. -/
theorem msgMean_eq (c : Dev nD) :
    (dat1 (F := Ideal) V c).arrAt 4 cfg1.N
      = Cert.Spec.msgMean (V c (Pipeline.arrRef spec1 0)) (V c (Pipeline.arrRef spec1 2)) :=
  (dat1 (F := Ideal) V c).arrAt_eq_of_cover 4
    (Cert.Spec.msgMean (V c (Pipeline.arrRef spec1 0)) (V c (Pipeline.arrRef spec1 2)))
    (fun t _ => meanWriteBack V c t) mean_filled

/-- After the second launch its second result array is the messages' variances. -/
theorem msgVar_eq (c : Dev nD) :
    (dat1 (F := Ideal) V c).arrAt 5 cfg1.N
      = Cert.Spec.msgVar (V c (Pipeline.arrRef spec1 0)) (V c (Pipeline.arrRef spec1 1)) (V c (Pipeline.arrRef spec1 2)) (V c (Pipeline.arrRef spec1 3)) :=
  (dat1 (F := Ideal) V c).arrAt_eq_of_cover 5
    (Cert.Spec.msgVar (V c (Pipeline.arrRef spec1 0)) (V c (Pipeline.arrRef spec1 1)) (V c (Pipeline.arrRef spec1 2)) (V c (Pipeline.arrRef spec1 3)))
    (fun t _ => varWriteBack V c t) var_filled

end Cert.KernelIdeal.Region1

end
-- ==== Proof.Region2.lean ====
/-
  Stage 3 on the device: ten grid points, point t holding rows 4000·t … of the two aggregates and of the degree column;
  the scale and shift rows are whole at every point. Every row is normalised by itself (its mean and variance are sums
  along the row, which lies inside the block), so what point t writes back is rows 4000·t … of the whole-array functions.
  No algebraic law is needed to join the two sides: entry by entry the body computes the stage function's own formula
  (maximum, quotient, two lane sums each times 2⁻⁷, reciprocal root, scale and shift); what is shown is that a block's
  row r is the array's row 4000·t + r, that the ten blocks fill the array, and that every point writes its block back.
-/
import proofs.«171887_j68693706932589_1_alg».proof.Proof.Gen.KernelIdeal.Frame
import proofs.«171887_j68693706932589_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Layout readings: a column along the lanes, a vector as a column, a lane sum at a row -/

/-- A column [a, 1] broadcast along the lanes to [a, b] reads, at (r, q), the column's entry of row r. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (q : Fin b) :
    broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- A vector [a] cast to a column [a, 1] reads, at (r, u), the vector's entry r. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The sum along the lanes of a [4000, 128] block, read at row r: the sum of that row's 128 entries. -/
theorem laneSum_apply (v : FVec Ideal S4000x128 .f32) (h : S4000x128.Reduces [1] S4000) (hφ : FKind.Formats .f32)
    (hacc : (0x00000000#32 : BitVec 32) = FKind.add.neutral .f32 hφ) (r : Fin 4000) :
    multiReduction (F := Ideal) .add [1] S4000 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v ?_
  funext a
  apply Fin.ext
  match a with
  | ⟨0, _⟩ => rfl
  | ⟨1, _⟩ => rfl

/-- The reciprocal square root of a vector reads entry by entry. -/
theorem rsqrt_apply {s : Shape} {φ : FTy} (a : FVec Ideal s φ) (i : s.Idx) : rsqrt a i = Ideal.rsqrt (a i) := rfl

/-! ## The body's arithmetic at one entry of a block

A block holds 4000 whole rows. Entry (r, q) of what the body stores depends on row r of the aggregate block, on entry r
of the degree block and on lane q of the scale and shift rows, and on nothing else: the two sums run along row r. So
once row r of the block is row p of the array, the stored entry is the stage function's entry (p, q). -/

/-- The clamped degree of a block's row: the larger of 1 and the degree. -/
theorem clamp_apply (d : Vec Ideal S4000x1 .f32) (r : Fin 4000) :
    k2_pay1 (F := Ideal) d (ix2 r (0 : Fin 1)) = max Cert.Spec.one (d (ix2 r (0 : Fin 1))) := by
  unfold k2_pay1
  simp only [maximumf_apply, broadcast_apply, shapeCast_self]
  rfl

/-- The second stored block at (r, q): the variance aggregate over the square of the clamped degree of its row. -/
theorem varPayload_apply (d : Vec Ideal S4000x1 .f32) (x1 : Vec Ideal S4000x128 .f32)
    (a : FVec Ideal Cert.Spec.NodeMat .f32) (deg : FVec Ideal Cert.Spec.NodeCol .f32)
    (r : Fin 4000) (p : Fin 40000) (q : Fin 128)
    (ha : x1 (ix2 r q) = a (ix2 p q)) (hd : d (ix2 r (0 : Fin 1)) = deg (ix2 p (0 : Fin 1))) :
    k2_pay2 (F := Ideal) d x1 (ix2 r q) = Cert.Spec.normVarAt a deg p q := by
  unfold k2_pay2
  simp only [divf_apply, mulf_apply, shapeCast_self, broadcastTo_a1_ab_apply, clamp_apply, ha, hd]
  rfl

/-- A block's rows, each divided by its clamped degree. -/
def scaledBlk (d : Vec Ideal S4000x1 .f32) (x0 : Vec Ideal S4000x128 .f32) : FVec Ideal S4000x128 .f32 :=
  divf (shapeCast S4000x128 x0 shapeCasts_S4000x128_S4000x128)
    (broadcastTo S4000x128 (k2_pay1 (F := Ideal) d) broadcasts_S4000x1_S4000x128)

/-- The column whose entry r is the sum of row r of a block times 2⁻⁷: the rows' means. -/
def meanCol (w : FVec Ideal S4000x128 .f32) : FVec Ideal S4000x1 .f32 :=
  mulf (shapeCast S4000x1 (multiReduction (F := Ideal) .add [1] S4000 w 0x00000000#32 reduces_S4000x128_S4000 (.inl rfl) rfl)
      shapeCasts_S4000_S4000x1)
    (broadcast S4000x1 (Scalar.ofBits (F := Ideal) .f32 0x3C000000#32))

/-- The scaled block with each row's own mean taken off. -/
def centredBlk (d : Vec Ideal S4000x1 .f32) (x0 : Vec Ideal S4000x128 .f32) : FVec Ideal S4000x128 .f32 :=
  subf (scaledBlk d x0) (broadcastTo S4000x128 (meanCol (scaledBlk d x0)) broadcasts_S4000x1_S4000x128)

/-- The first stored block is the centred block times the reciprocal root of (the mean of its squares along each row,
    plus ε), times the scale row, plus the shift row: the printed payload, grouped. -/
theorem meanPayload_eq (d : Vec Ideal S4000x1 .f32) (x0 : Vec Ideal S4000x128 .f32) (g b : Vec Ideal S1x128 .f32) :
    k2_pay3 (F := Ideal) d x0 g b
      = addf (mulf (mulf (centredBlk d x0)
            (broadcastTo S4000x128 (rsqrt (addf (meanCol (mulf (centredBlk d x0) (centredBlk d x0)))
                (broadcast S4000x1 (Scalar.ofBits (F := Ideal) .f32 0x3727C5AC#32)))) broadcasts_S4000x1_S4000x128))
          (broadcastTo S4000x128 (shapeCast S1x128 g shapeCasts_S1x128_S1x128) broadcasts_S1x128_S4000x128))
        (broadcastTo S4000x128 (shapeCast S1x128 b shapeCasts_S1x128_S1x128) broadcasts_S1x128_S4000x128) := rfl

/-- Entry r of the mean column: the sum of row r over its 128 lanes, times 2⁻⁷. -/
theorem meanCol_apply (w : FVec Ideal S4000x128 .f32) (r : Fin 4000) (u : Fin 1) :
    meanCol w (ix2 r u) = (∑ k : Fin 128, w (ix2 r k)) * Cert.Spec.inv128 := by
  unfold meanCol
  rw [mulf_apply, broadcast_apply, shapeCast_a_a1_apply]
  exact congrArg (fun s => s * Cert.Spec.inv128) (laneSum_apply w _ _ _ r)

section Row
variable (d : Vec Ideal S4000x1 .f32) (x0 : Vec Ideal S4000x128 .f32)
  (a : FVec Ideal Cert.Spec.NodeMat .f32) (deg : FVec Ideal Cert.Spec.NodeCol .f32)
  (r : Fin 4000) (p : Fin 40000)
  (ha : ∀ k : Fin 128, x0 (ix2 r k) = a (ix2 p k)) (hd : d (ix2 r (0 : Fin 1)) = deg (ix2 p (0 : Fin 1)))
include ha hd

/-- Where row r of the block is row p of the array, the scaled block's row r is the array's scaled row p. -/
theorem scaledBlk_apply (k : Fin 128) : scaledBlk d x0 (ix2 r k) = Cert.Spec.scaled a deg p k := by
  unfold scaledBlk
  rw [divf_apply, shapeCast_self, broadcastTo_a1_ab_apply, clamp_apply, ha, hd]
  rfl

/-- … its mean is row p's mean … -/
theorem rowMean_apply (u : Fin 1) : meanCol (scaledBlk d x0) (ix2 r u) = Cert.Spec.rowMean a deg p := by
  rw [meanCol_apply]
  exact congrArg (fun s => s * Cert.Spec.inv128)
    (Finset.sum_congr rfl fun k _ => scaledBlk_apply d x0 a deg r p ha hd k)

/-- … the centred block's row r is row p centred … -/
theorem centredBlk_apply (k : Fin 128) : centredBlk d x0 (ix2 r k) = Cert.Spec.centred a deg p k := by
  unfold centredBlk
  rw [subf_apply, broadcastTo_a1_ab_apply, rowMean_apply d x0 a deg r p ha hd, scaledBlk_apply d x0 a deg r p ha hd]
  rfl

/-- … and the mean of its squares is row p's variance. -/
theorem rowVar_apply (u : Fin 1) :
    meanCol (mulf (centredBlk d x0) (centredBlk d x0)) (ix2 r u) = Cert.Spec.rowVar a deg p := by
  rw [meanCol_apply]
  refine congrArg (fun s => s * Cert.Spec.inv128) (Finset.sum_congr rfl fun k _ => ?_)
  rw [mulf_apply, centredBlk_apply d x0 a deg r p ha hd]

/-- The first stored block at (r, q): row p of the aggregate over its clamped degree, centred by its own mean, scaled
    by the reciprocal root of its own variance plus ε, then by lane q of the scale row, plus lane q of the shift row. -/
theorem meanPayload_apply (g b : Vec Ideal S1x128 .f32) (γ β : FVec Ideal Cert.Spec.Row .f32) (q : Fin 128)
    (hγ : g (ix2 (0 : Fin 1) q) = γ (ix2 (0 : Fin 1) q)) (hβ : b (ix2 (0 : Fin 1) q) = β (ix2 (0 : Fin 1) q)) :
    k2_pay3 (F := Ideal) d x0 g b (ix2 r q) = Cert.Spec.normMeanAt a deg γ β p q := by
  rw [meanPayload_eq, addf_apply, mulf_apply, mulf_apply, centredBlk_apply d x0 a deg r p ha hd,
    broadcastTo_a1_ab_apply, rsqrt_apply, addf_apply, broadcast_apply, rowVar_apply d x0 a deg r p ha hd,
    broadcastTo_1b_ab_apply, broadcastTo_1b_ab_apply, shapeCast_self, shapeCast_self, hγ, hβ]
  rfl

end Row

/-! ## The blocks

Point t of the grid holds rows 4000·t … 4000·t + 3999 of the two aggregates, of the degree column and of the two result
arrays; the scale and shift rows are the same whole [1, 128] block at every point. -/

/-- The arrays the region finds, at their literal shapes: the mean aggregate, the variance aggregate, the degree
    column, the scale row and the shift row. -/
abbrev aggMean (c : Dev nD) : FVec Ideal Cert.Spec.NodeMat .f32 := V c (Pipeline.arrRef spec2 0)
abbrev aggVar (c : Dev nD) : FVec Ideal Cert.Spec.NodeMat .f32 := V c (Pipeline.arrRef spec2 1)
abbrev degCol (c : Dev nD) : FVec Ideal Cert.Spec.NodeCol .f32 := V c (Pipeline.arrRef spec2 2)
abbrev scaleRow (c : Dev nD) : FVec Ideal Cert.Spec.Row .f32 := V c (Pipeline.arrRef spec2 3)
abbrev shiftRow (c : Dev nD) : FVec Ideal Cert.Spec.Row .f32 := V c (Pipeline.arrRef spec2 4)

theorem zeroOffsets : (![0, 0] : Fin 2 → Nat) = fun _ => 0 := funext fun a => by fin_cases a <;> rfl

/-- The printed index maps, decided over the ten points: the three row-blocked inputs sit at the same row block as the
    two results and at lane block 0; the scale and shift rows sit at block (0, 0); there are ten row blocks. -/
theorem blockIndex_facts : ∀ t : Fin cfg2.N,
      win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = win2_5.index t (0 : Fin 2) ∧ win2_6.index t (1 : Fin 2) = 0
    ∧ win2_5.index t (0 : Fin 2) ≤ 9 ∧ win2_5.index t (1 : Fin 2) = 0 :=
  (by decide +kernel : ∀ t : Fin grid2.N, _)

/-- Every one of the ten row blocks is some point's, for both results. -/
theorem blockIndex_onto : ∀ b : Fin 10, ∃ t : Fin cfg2.N, win2_5.index t = ![b.val, 0] ∧ win2_6.index t = ![b.val, 0] :=
  (by decide +kernel : ∀ b : Fin 10, ∃ t : Fin grid2.N, win2_5.index t = ![b.val, 0] ∧ win2_6.index t = ![b.val, 0])

/-- Row r of point t's block of the mean aggregate is row (row block · 4000 + r) of the array. -/
theorem aggMeanBlk_apply (c : Dev nD) (t : Fin cfg2.N) (r : Fin 4000) (k : Fin 128) (p : Fin 40000)
    (hp : p.val = win2_5.index t (0 : Fin 2) * 4000 + r.val) :
    (iblk2 V c 0 t : Vec Ideal S4000x128 .f32) (ix2 r k) = aggMean V c (ix2 p k) := by
  obtain ⟨e00, e01, -⟩ := blockIndex_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 4000 + 1 * r.val = p.val; omega
  | ⟨1, _⟩ => show win2_0.index t (1 : Fin 2) * 128 + 1 * k.val = k.val; omega

/-- Row r of point t's block of the variance aggregate is row (row block · 4000 + r) of the array. -/
theorem aggVarBlk_apply (c : Dev nD) (t : Fin cfg2.N) (r : Fin 4000) (k : Fin 128) (p : Fin 40000)
    (hp : p.val = win2_5.index t (0 : Fin 2) * 4000 + r.val) :
    (iblk2 V c 1 t : Vec Ideal S4000x128 .f32) (ix2 r k) = aggVar V c (ix2 p k) := by
  obtain ⟨-, -, e10, e11, -⟩ := blockIndex_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 4000 + 1 * r.val = p.val; omega
  | ⟨1, _⟩ => show win2_1.index t (1 : Fin 2) * 128 + 1 * k.val = k.val; omega

/-- Entry r of point t's block of the degree column is entry (row block · 4000 + r) of the column. -/
theorem degBlk_apply (c : Dev nD) (t : Fin cfg2.N) (r : Fin 4000) (p : Fin 40000)
    (hp : p.val = win2_5.index t (0 : Fin 2) * 4000 + r.val) :
    (iblk2 V c 2 t : Vec Ideal S4000x1 .f32) (ix2 r (0 : Fin 1)) = degCol V c (ix2 p (0 : Fin 1)) := by
  obtain ⟨-, -, -, -, e20, e21, -⟩ := blockIndex_facts t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 4000 + 1 * r.val = p.val; omega
  | ⟨1, _⟩ => show win2_2.index t (1 : Fin 2) * 1 + 1 * 0 = 0; omega

/-- At every point the scale block is the whole scale row. -/
theorem scaleBlk_apply (c : Dev nD) (t : Fin cfg2.N) (q : Fin 128) :
    (iblk2 V c 3 t : Vec Ideal S1x128 .f32) (ix2 (0 : Fin 1) q) = scaleRow V c (ix2 (0 : Fin 1) q) := by
  obtain ⟨-, -, -, -, -, -, e30, e31, -⟩ := blockIndex_facts t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * 0 = 0; omega
  | ⟨1, _⟩ => show win2_3.index t (1 : Fin 2) * 128 + 1 * q.val = q.val; omega

/-- At every point the shift block is the whole shift row. -/
theorem shiftBlk_apply (c : Dev nD) (t : Fin cfg2.N) (q : Fin 128) :
    (iblk2 V c 4 t : Vec Ideal S1x128 .f32) (ix2 (0 : Fin 1) q) = shiftRow V c (ix2 (0 : Fin 1) q) := by
  obtain ⟨-, -, -, -, -, -, -, -, e40, e41, -⟩ := blockIndex_facts t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * 0 = 0; omega
  | ⟨1, _⟩ => show win2_4.index t (1 : Fin 2) * 128 + 1 * q.val = q.val; omega

/-! ## What a point writes back -/

/-- What point t writes back to the first result array is block t of the normalised mean: each of its rows is
    normalised by its own mean and variance, and those are sums along the row, which lies inside the block. -/
theorem wroteBack_mean (c : Dev nD) (t : Fin cfg2.N) :
    (dat2 (F := Ideal) V c).flushed 5 t
      = ((cfg2.win 5).blk t).view.read (Elt Ideal)
          (Cert.Spec.normMean (aggMean V c) (degCol V c) (scaleRow V c) (shiftRow V c)) := by
  show (cfg2.win 5).cut (grid2.coords t) ((dat2 V c).after 5 t) = _
  rw [after2_5]
  unfold out2_5
  rw [View.canon_unit_zero zeroOffsets]
  simp only [View.ld_unit_zero (S := S4000x128) zeroOffsets, View.ld_unit_zero (S := S4000x1) zeroOffsets,
    View.ld_unit_zero (S := S1x128) zeroOffsets]
  obtain ⟨-, -, -, -, -, -, -, -, -, -, -, -, e5le, e51⟩ := blockIndex_facts t
  refine funext fun (j : S4000x128.Idx) => ?_
  obtain ⟨r, q, rfl⟩ : ∃ (r : Fin 4000) (q : Fin 128), j = ix2 r q := ⟨j 0, j 1, eq_ix2 j⟩
  have hr : r.val < 4000 := r.isLt
  obtain ⟨p, hp⟩ : ∃ p : Fin 40000, p.val = win2_5.index t (0 : Fin 2) * 4000 + r.val := ⟨⟨_, by omega⟩, rfl⟩
  refine (meanPayload_apply (iblk2 V c 2 t) (iblk2 V c 0 t) (aggMean V c) (degCol V c) r p
    (fun k => aggMeanBlk_apply V c t r k p hp) (degBlk_apply V c t r p hp)
    (iblk2 V c 3 t) (iblk2 V c 4 t) (scaleRow V c) (shiftRow V c) q (scaleBlk_apply V c t q) (shiftBlk_apply V c t q)).trans ?_
  rw [View.read_apply]
  have he : ((cfg2.win 5).blk t).view.emb (ix2 r q) = (ix2 p q : S40000x128.Idx) := by
    funext a
    apply Fin.ext
    match a with
    | ⟨0, _⟩ => show win2_5.index t (0 : Fin 2) * 4000 + 1 * r.val = p.val; omega
    | ⟨1, _⟩ => show win2_5.index t (1 : Fin 2) * 128 + 1 * q.val = q.val; omega
  rw [he]
  rfl

/-- What point t writes back to the second result array is block t of the variance aggregate over the squared degree. -/
theorem wroteBack_var (c : Dev nD) (t : Fin cfg2.N) :
    (dat2 (F := Ideal) V c).flushed 6 t
      = ((cfg2.win 6).blk t).view.read (Elt Ideal) (Cert.Spec.normVar (aggVar V c) (degCol V c)) := by
  show (cfg2.win 6).cut (grid2.coords t) ((dat2 V c).after 6 t) = _
  rw [after2_6]
  unfold out2_6
  rw [View.canon_unit_zero zeroOffsets]
  simp only [View.ld_unit_zero (S := S4000x128) zeroOffsets, View.ld_unit_zero (S := S4000x1) zeroOffsets]
  obtain ⟨-, -, -, -, -, -, -, -, -, -, e60, e61, e5le, -⟩ := blockIndex_facts t
  refine funext fun (j : S4000x128.Idx) => ?_
  obtain ⟨r, q, rfl⟩ : ∃ (r : Fin 4000) (q : Fin 128), j = ix2 r q := ⟨j 0, j 1, eq_ix2 j⟩
  have hr : r.val < 4000 := r.isLt
  obtain ⟨p, hp⟩ : ∃ p : Fin 40000, p.val = win2_5.index t (0 : Fin 2) * 4000 + r.val := ⟨⟨_, by omega⟩, rfl⟩
  refine (varPayload_apply (iblk2 V c 2 t) (iblk2 V c 1 t) (aggVar V c) (degCol V c) r p q
    (aggVarBlk_apply V c t r q p hp) (degBlk_apply V c t r p hp)).trans ?_
  rw [View.read_apply]
  have he : ((cfg2.win 6).blk t).view.emb (ix2 r q) = (ix2 p q : S40000x128.Idx) := by
    funext a
    apply Fin.ext
    match a with
    | ⟨0, _⟩ => show win2_6.index t (0 : Fin 2) * 4000 + 1 * r.val = p.val; omega
    | ⟨1, _⟩ => show win2_6.index t (1 : Fin 2) * 128 + 1 * q.val = q.val; omega
  rw [he]
  rfl

/-! ## From blocks to the arrays -/

/-- An index of the first result array is in point t's block iff each coordinate is in the block's range on its axis. -/
theorem mem_meanBlk (t : Fin cfg2.N) (i : S40000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v37_0).slice (win2_5.rect t)).set ↔ _
  rw [View.set_slice_whole, Rect.mem_set_unit]
  exact Iff.rfl

/-- The same for the second result array. -/
theorem mem_varBlk (t : Fin cfg2.N) (i : S40000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v37_1).slice (win2_6.rect t)).set ↔ _
  rw [View.set_slice_whole, Rect.mem_set_unit]
  exact Iff.rfl

/-- Row r of the first result array lies in the block of the point whose row block is r / 4000, and every point
    writes its block back: the ten blocks fill the array. -/
theorem cover_mean (i : S40000x128.Idx) :
    ∃ t : Fin cfg2.N, (cfg2.win 5).flush t = true ∧ i ∈ ((cfg2.win 5).blk t).view.set := by
  have hi0 : (i 0).val < 40000 := (i 0).isLt
  have hi1 : (i 1).val < 128 := (i 1).isLt
  obtain ⟨t, ht, -⟩ := blockIndex_onto ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_meanBlk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- The same for the second result array. -/
theorem cover_var (i : S40000x128.Idx) :
    ∃ t : Fin cfg2.N, (cfg2.win 6).flush t = true ∧ i ∈ ((cfg2.win 6).blk t).view.set := by
  have hi0 : (i 0).val < 40000 := (i 0).isLt
  have hi1 : (i 1).val < 128 := (i 1).isLt
  obtain ⟨t, -, ht⟩ := blockIndex_onto ⟨(i 0).val / 4000, by omega⟩
  have q0 : win2_6.index t (0 : Fin 2) = (i 0).val / 4000 := congrFun ht 0
  have q1 : win2_6.index t (1 : Fin 2) = 0 := congrFun ht 1
  refine ⟨t, flush2_6 t, ?_⟩
  rw [mem_varBlk]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 128 ≤ (i 1).val ∧ (i 1).val < win2_6.index t (1 : Fin 2) * 128 + 128; omega

/-- After the third launch its first result array is the normalised mean. -/
theorem outMean_eq (c : Dev nD) :
    (dat2 (F := Ideal) V c).arrAt 5 cfg2.N
      = Cert.Spec.normMean (V c (Pipeline.arrRef spec2 0)) (V c (Pipeline.arrRef spec2 2)) (V c (Pipeline.arrRef spec2 3)) (V c (Pipeline.arrRef spec2 4)) :=
  (dat2 (F := Ideal) V c).arrAt_eq_of_cover 5
    (Cert.Spec.normMean (aggMean V c) (degCol V c) (scaleRow V c) (shiftRow V c))
    (fun t _ => wroteBack_mean V c t) cover_mean

/-- After the third launch its second result array is the variance aggregate over the squared degree. -/
theorem outVar_eq (c : Dev nD) :
    (dat2 (F := Ideal) V c).arrAt 6 cfg2.N
      = Cert.Spec.normVar (V c (Pipeline.arrRef spec2 1)) (V c (Pipeline.arrRef spec2 2)) :=
  (dat2 (F := Ideal) V c).arrAt_eq_of_cover 6
    (Cert.Spec.normVar (aggVar V c) (degCol V c))
    (fun t _ => wroteBack_var V c t) cover_var

end Cert.KernelIdeal.Region2

end
-- ==== Proof.Glue.lean ====
/-
  The host operations between the launches, read as values. Between two launches the device's buffers change only by
  the host operations of that stretch (each writes its own result buffer) and, across a launch, only at the launch's
  own arrays. So the arrays a launch finds are: an argument of the program as it was launched; a reshape of one; a
  gather of the first launch's results at the edges' source nodes; a scatter-add, at the edges' target nodes, of the
  second launch's results or of ones (the degree).
-/
import proofs.«171887_j68693706932589_1_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ) (ρ : Dev nD → PrngReg) (c : Dev nD)

/-! ## The index columns both programs compute from the edge list -/

/-- The edges' target nodes (row 0 of the edge list) as an [E, 1] column. -/
def tgtIdx (x1 : (⟨S2x640000, .i32⟩ : BufTy).Contents (Elt F)) : (⟨S640000x1, .i32⟩ : BufTy).Contents (Elt F) :=
  broadcastInDim S640000x1 ![0] bcast_S640000_S640000x1_0
    (shapeCast _ (extractStridedSlice S1x640000 ![0, 0] x1 slices_S2x640000_S1x640000_0_0) shapeCasts_S1x640000_S640000)

/-- The edges' source nodes (row 1 of the edge list), a negative one counted from the end, as an [E, 1] column. -/
def srcIdx (x1 : (⟨S2x640000, .i32⟩ : BufTy).Contents (Elt F)) : (⟨S640000x1, .i32⟩ : BufTy).Contents (Elt F) :=
  broadcastInDim S640000x1 ![0] bcast_S640000_S640000x1_0
    (select (cmpi .slt (shapeCast _ (extractStridedSlice S1x640000 ![1, 0] x1 slices_S2x640000_S1x640000_1_0) shapeCasts_S1x640000_S640000)
        (broadcastInDim S640000 ![] bcast_S_S640000 (constantI S_ 32 0#32)))
      (addi (shapeCast _ (extractStridedSlice S1x640000 ![1, 0] x1 slices_S2x640000_S1x640000_1_0) shapeCasts_S1x640000_S640000)
        (broadcastInDim S640000 ![] bcast_S_S640000 (constantI S_ 32 40000#32)))
      (shapeCast _ (extractStridedSlice S1x640000 ![1, 0] x1 slices_S2x640000_S1x640000_1_0) shapeCasts_S1x640000_S640000))

/-- Rows of a node array gathered at the edges' source nodes. -/
def atSources (x1 : (⟨S2x640000, .i32⟩ : BufTy).Contents (Elt F)) (a : (⟨S40000x128, .f32⟩ : BufTy).Contents (Elt F)) :
    (⟨S640000x128, .f32⟩ : BufTy).Contents (Elt F) :=
  Host.gather gather_S40000x128_S640000x1_S640000x128_1_0_n_n_0_1_1128 a (srcIdx x1)

/-- Rows of an edge array summed into the edges' target nodes, from zero. -/
def sumAtTargets (x1 : (⟨S2x640000, .i32⟩ : BufTy).Contents (Elt F)) (u : (⟨S640000x128, .f32⟩ : BufTy).Contents (Elt F)) :
    (⟨S40000x128, .f32⟩ : BufTy).Contents (Elt F) :=
  Host.scatterAdd scatter_S40000x128_S640000x1_S640000x128_1_0_0_1
    (broadcastInDim S40000x128 ![] bcast_S_S40000x128 (constant (F := F) S_ .f32 0x00000000#32)) (tgtIdx x1) u

/-- The degree: ones summed into the edges' target nodes, from zero. -/
def degree (x1 : (⟨S2x640000, .i32⟩ : BufTy).Contents (Elt F)) : (⟨S40000, .f32⟩ : BufTy).Contents (Elt F) :=
  Host.scatterAdd scatter_S40000_S640000x1_S640000_n_0_0_1
    (broadcastInDim S40000 ![] bcast_S_S40000 (constant (F := F) S_ .f32 0x00000000#32))
    (tgtIdx x1) (broadcastInDim S640000 ![] bcast_S_S640000 (constant (F := F) S_ .f32 0x3F800000#32))

/-! ## What the first launch finds -/

theorem first_arg0 : V1 m ρ c main_arg0 = m ((c : Thread nD τ).loc main_arg0) := by
  show StableHlo.after hostOps0 (W0 m ρ c) (Proc.devRef .tc main_arg0) = _
  after_results <;> rfl

theorem first_arg4 : V1 m ρ c main_arg4 = m ((c : Thread nD τ).loc main_arg4) := by
  show StableHlo.after hostOps0 (W0 m ρ c) (Proc.devRef .tc main_arg4) = _
  after_results <;> rfl

theorem first_arg6 : V1 m ρ c main_arg6 = m ((c : Thread nD τ).loc main_arg6) := by
  show StableHlo.after hostOps0 (W0 m ρ c) (Proc.devRef .tc main_arg6) = _
  after_results <;> rfl

theorem first_bias0 : V1 m ρ c main_v0 = shapeCast S1x128 (m ((c : Thread nD τ).loc main_arg5)) shapeCasts_S128_S1x128 := by
  show StableHlo.after hostOps0 (W0 m ρ c) (Proc.devRef .tc main_v0) = _
  after_results <;> rfl

theorem first_bias1 : V1 m ρ c main_v1 = shapeCast S1x128 (m ((c : Thread nD τ).loc main_arg7)) shapeCasts_S128_S1x128 := by
  show StableHlo.after hostOps0 (W0 m ρ c) (Proc.devRef .tc main_v1) = _
  after_results <;> rfl

/-! ## Across the first launch: the arguments it does not stage, and what the second launch finds -/

theorem afterFirst_arg1 : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl

theorem afterFirst_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl

theorem afterFirst_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl

theorem afterFirst_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem afterFirst_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl

/-- The gathered means: the first launch's first result at the edges' source nodes. -/
theorem second_hm : V3 m ρ c main_v13
    = atSources (m ((c : Thread nD τ).loc main_arg1)) (W2 m ρ c (Proc.devRef .tc main_v2_0)) := by
  show StableHlo.after hostOps1 (W2 m ρ c) (Proc.devRef .tc main_v13) = _
  after_results
  rw [afterFirst_arg1]
  rfl

set_option maxHeartbeats 4000000 in
/-- The gathered variances: the first launch's second result at the edges' source nodes. -/
theorem second_hv : V3 m ρ c main_v20
    = atSources (m ((c : Thread nD τ).loc main_arg1)) (W2 m ρ c (Proc.devRef .tc main_v2_1)) := by
  show StableHlo.after hostOps1 (W2 m ρ c) (Proc.devRef .tc main_v20) = _
  after_results
  rw [afterFirst_arg1]
  rfl

set_option maxHeartbeats 4000000 in
theorem second_wm : V3 m ρ c main_v21 = shapeCast S640000x1 (m ((c : Thread nD τ).loc main_arg2)) shapeCasts_S640000_S640000x1 := by
  show StableHlo.after hostOps1 (W2 m ρ c) (Proc.devRef .tc main_v21) = _
  after_results
  rw [afterFirst_arg2]
  rfl

set_option maxHeartbeats 4000000 in
theorem second_wv : V3 m ρ c main_v22 = shapeCast S640000x1 (m ((c : Thread nD τ).loc main_arg3)) shapeCasts_S640000_S640000x1 := by
  show StableHlo.after hostOps1 (W2 m ρ c) (Proc.devRef .tc main_v22) = _
  after_results
  rw [afterFirst_arg3]
  rfl

/-! ## Across the second launch, and what the third launch finds -/

theorem afterSecond_tgt : W4 m ρ c (Proc.devRef .tc main_v4)
    = shapeCast _ (extractStridedSlice S1x640000 ![0, 0] (m ((c : Thread nD τ).loc main_arg1)) slices_S2x640000_S1x640000_0_0) shapeCasts_S1x640000_S640000 := by
  rw [W4_of_ne m ρ c main_v4 (by decide)]
  show StableHlo.after hostOps1 (W2 m ρ c) (Proc.devRef .tc main_v4) = _
  after_results
  rw [afterFirst_arg1]
  rfl

theorem afterSecond_arg8 : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results
  exact afterFirst_arg8 m ρ c

theorem afterSecond_arg9 : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results
  exact afterFirst_arg9 m ρ c

/-- The mean aggregate: the messages' means summed into their target nodes, from zero. -/
theorem third_meanAgg : V5 m ρ c main_v26
    = sumAtTargets (m ((c : Thread nD τ).loc main_arg1)) (W4 m ρ c (Proc.devRef .tc main_v23_0)) := by
  show StableHlo.after hostOps2 (W4 m ρ c) (Proc.devRef .tc main_v26) = _
  after_results
  rw [afterSecond_tgt]
  rfl

/-- The variance aggregate: the messages' variances summed into their target nodes, from zero. -/
theorem third_varAgg : V5 m ρ c main_v29
    = sumAtTargets (m ((c : Thread nD τ).loc main_arg1)) (W4 m ρ c (Proc.devRef .tc main_v23_1)) := by
  show StableHlo.after hostOps2 (W4 m ρ c) (Proc.devRef .tc main_v29) = _
  after_results
  rw [afterSecond_tgt]
  rfl

theorem third_deg : V5 m ρ c main_v34
    = shapeCast S40000x1 (degree (m ((c : Thread nD τ).loc main_arg1))) shapeCasts_S40000_S40000x1 := by
  show StableHlo.after hostOps2 (W4 m ρ c) (Proc.devRef .tc main_v34) = _
  after_results
  rw [afterSecond_tgt]
  rfl

theorem third_scale : V5 m ρ c main_v35 = shapeCast S1x128 (m ((c : Thread nD τ).loc main_arg8)) shapeCasts_S128_S1x128 := by
  show StableHlo.after hostOps2 (W4 m ρ c) (Proc.devRef .tc main_v35) = _
  after_results
  rw [afterSecond_arg8]
  rfl

theorem third_shift : V5 m ρ c main_v36 = shapeCast S1x128 (m ((c : Thread nD τ).loc main_arg9)) shapeCasts_S128_S1x128 := by
  show StableHlo.after hostOps2 (W4 m ρ c) (Proc.devRef .tc main_v36) = _
  after_results
  rw [afterSecond_arg9]
  rfl

/-! ## Reading a reshape of a vector to a column -/

/-- An [a] array cast to [a, 1] reads, at (i, u), the operand at i, whatever the unit coordinate u. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.KernelIdeal.Glue

end
-- ==== Proof.KValue.lean ====
/-
  The idealized kernel's two results as functions of the program's arguments: the three launches' results composed
  with the host operations between them.

    hm = affine x w b,  hv = expAffine x w' b'                         (first launch)
    the gathers of hm, hv at the edges' source nodes                     (host)
    mm = msgMean (gathered hm) ωm,  mv = msgVar (gathered hm) (gathered hv) ωm ωv    (second launch)
    the scatter-adds of mm, mv and of ones at the edges' target nodes    (host)
    normMean (Σ mm) deg γ β,  normVar (Σ mv) deg                         (third launch)
-/
import proofs.«171887_j68693706932589_1_alg».proof.Proof.Region0
import proofs.«171887_j68693706932589_1_alg».proof.Proof.Region1
import proofs.«171887_j68693706932589_1_alg».proof.Proof.Region2
import proofs.«171887_j68693706932589_1_alg».proof.Proof.Glue
import proofs.«171887_j68693706932589_1_alg».proof.Proof.KRun

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx

/-! ## The composed functions -/

section Fns

variable (x0 : (⟨S40000x128, .f32⟩ : BufTy).Contents (Elt Ideal)) (x1 : (⟨S2x640000, .i32⟩ : BufTy).Contents (Elt Ideal))
  (x2 x3 : (⟨S640000, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-- A vector of 128 entries as a [1, 128] row. -/
abbrev asRow (v : (⟨S128, .f32⟩ : BufTy).Contents (Elt Ideal)) : (⟨S1x128, .f32⟩ : BufTy).Contents (Elt Ideal) :=
  shapeCast S1x128 v shapeCasts_S128_S1x128

/-- A vector over the edges as an [E, 1] column. -/
abbrev asEdgeCol (v : (⟨S640000, .f32⟩ : BufTy).Contents (Elt Ideal)) : (⟨S640000x1, .f32⟩ : BufTy).Contents (Elt Ideal) :=
  shapeCast S640000x1 v shapeCasts_S640000_S640000x1

/-- The degree as an [N, 1] column. -/
abbrev degCol : (⟨S40000x1, .f32⟩ : BufTy).Contents (Elt Ideal) :=
  shapeCast S40000x1 (Glue.degree (F := Ideal) x1) shapeCasts_S40000_S40000x1

/-- The node means. -/
def nodeMeanFn : (⟨S40000x128, .f32⟩ : BufTy).Contents (Elt Ideal) := Cert.Spec.affine x0 x4 (asRow x5)

/-- The node variances. -/
def nodeVarFn : (⟨S40000x128, .f32⟩ : BufTy).Contents (Elt Ideal) := Cert.Spec.expAffine x0 x6 (asRow x7)

/-- The messages' means. -/
def edgeMeanFn : (⟨S640000x128, .f32⟩ : BufTy).Contents (Elt Ideal) :=
  Cert.Spec.msgMean (Glue.atSources (F := Ideal) x1 (nodeMeanFn x0 x4 x5)) (asEdgeCol x2)

/-- The messages' variances. -/
def edgeVarFn : (⟨S640000x128, .f32⟩ : BufTy).Contents (Elt Ideal) :=
  Cert.Spec.msgVar (Glue.atSources (F := Ideal) x1 (nodeMeanFn x0 x4 x5)) (Glue.atSources (F := Ideal) x1 (nodeVarFn x0 x6 x7))
    (asEdgeCol x2) (asEdgeCol x3)

/-- The first result: the normalised mean aggregate. -/
def meanOut : (⟨S40000x128, .f32⟩ : BufTy).Contents (Elt Ideal) :=
  Cert.Spec.normMean (Glue.sumAtTargets (F := Ideal) x1 (edgeMeanFn x0 x1 x2 x4 x5)) (degCol x1) (asRow x8) (asRow x9)

/-- The second result: the variance aggregate over the squared degree. -/
def varOut : (⟨S40000x128, .f32⟩ : BufTy).Contents (Elt Ideal) :=
  Cert.Spec.normVar (Glue.sumAtTargets (F := Ideal) x1 (edgeVarFn x0 x1 x2 x3 x4 x5 x6 x7)) (degCol x1)

end Fns

/-! ## The run's boundary contents are those functions of the arguments -/

variable (m : (ℓ : Loc nD τ sig) → Buf (Elt Ideal) ℓ) (ρ : Dev nD → PrngReg) (c : Dev nD)

theorem nodeMean_eq : W2 m ρ c (Proc.devRef .tc main_v2_0) = nodeMeanFn (m ((c : Thread nD τ).loc main_arg0)) (m ((c : Thread nD τ).loc main_arg4)) (m ((c : Thread nD τ).loc main_arg5)) := by
  refine (W2_arr m ρ c 5).trans ((Region0.hmean_eq (V1 m ρ) c).trans ?_)
  show Cert.Spec.affine (V1 m ρ c main_arg0) (V1 m ρ c main_arg4) (V1 m ρ c main_v0) = _
  rw [Glue.first_arg0, Glue.first_arg4, Glue.first_bias0]
  rfl

theorem nodeVar_eq : W2 m ρ c (Proc.devRef .tc main_v2_1) = nodeVarFn (m ((c : Thread nD τ).loc main_arg0)) (m ((c : Thread nD τ).loc main_arg6)) (m ((c : Thread nD τ).loc main_arg7)) := by
  refine (W2_arr m ρ c 6).trans ((Region0.hvar_eq (V1 m ρ) c).trans ?_)
  show Cert.Spec.expAffine (V1 m ρ c main_arg0) (V1 m ρ c main_arg6) (V1 m ρ c main_v1) = _
  rw [Glue.first_arg0, Glue.first_arg6, Glue.first_bias1]
  rfl

theorem edgeMean_eq : W4 m ρ c (Proc.devRef .tc main_v23_0) = edgeMeanFn (m ((c : Thread nD τ).loc main_arg0)) (m ((c : Thread nD τ).loc main_arg1)) (m ((c : Thread nD τ).loc main_arg2)) (m ((c : Thread nD τ).loc main_arg4)) (m ((c : Thread nD τ).loc main_arg5)) := by
  refine (W4_arr m ρ c 4).trans ((Region1.msgMean_eq (V3 m ρ) c).trans ?_)
  show Cert.Spec.msgMean (V3 m ρ c main_v13) (V3 m ρ c main_v21) = _
  rw [Glue.second_hm, Glue.second_wm, nodeMean_eq]
  rfl

theorem edgeVar_eq : W4 m ρ c (Proc.devRef .tc main_v23_1) = edgeVarFn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Region1.msgVar_eq (V3 m ρ) c).trans ?_)
  show Cert.Spec.msgVar (V3 m ρ c main_v13) (V3 m ρ c main_v20) (V3 m ρ c main_v21) (V3 m ρ c main_v22) = _
  rw [Glue.second_hm, Glue.second_hv, Glue.second_wm, Glue.second_wv, nodeMean_eq, nodeVar_eq]
  rfl

theorem meanOut_eq : W6 m ρ c (Proc.devRef .tc main_v37_0) = meanOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9)) := by
  refine (W6_arr m ρ c 5).trans ((Region2.outMean_eq (V5 m ρ) c).trans ?_)
  show Cert.Spec.normMean (V5 m ρ c main_v26) (V5 m ρ c main_v34) (V5 m ρ c main_v35) (V5 m ρ c main_v36) = _
  rw [Glue.third_meanAgg, Glue.third_deg, Glue.third_scale, Glue.third_shift, edgeMean_eq]
  rfl

theorem varOut_eq : W6 m ρ c (Proc.devRef .tc main_v37_1) = varOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ((Region2.outVar_eq (V5 m ρ) c).trans ?_)
  show Cert.Spec.normVar (V5 m ρ c main_v29) (V5 m ρ c main_v34) = _
  rw [Glue.third_varAgg, Glue.third_deg, edgeVar_eq]
  rfl

/-- Every weakly fair execution of the idealized kernel terminates, nothing faulting, with its two results at those
    functions of the arguments and the argument arrays as launched. -/
theorem run : θ_run defs (onTc (τ := τ) (main (F := Ideal))) ⟨m, fun _ => 0, ρ⟩ (fun r => ∀ c : Dev nD,
      r.2.mem ((c.tc : Thread nD τ).loc main_v37_0) = meanOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg8)) (m ((c : Thread nD τ).loc main_arg9))
      ∧ r.2.mem ((c.tc : Thread nD τ).loc main_v37_1) = varOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (meanOut_eq m ρ c), (h c).2.1.trans (varOut_eq m ρ c), (h c).2.2⟩)
    (Cert.KernelIdeal.ValueRun.run (F := Ideal) m ρ)

end Cert.KernelIdeal.Whole

end
-- ==== Proof.RefHeads.lean ====
/-
  The reference's two linear heads, read index by index: the host's matrix product is the plain sum over the shared
  axis, the bias is spread along the rows, and the variance head applies the exponential entry by entry.
-/
import proofs.«171887_j68693706932589_1_alg».proof.Proof.Gen.ReferenceIdeal.Read
import proofs.«171887_j68693706932589_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«171887_j68693706932589_1_alg».proof.Proof.LibPlainDot

set_option maxRecDepth 16384

noncomputable section

namespace Cert.ReferenceIdeal.Bridge

open Cert.ReferenceIdeal Cert.ReferenceIdeal.Gen Cert.ReferenceIdeal.Read Idealize.ShloMosaic Idealize.ShloMosaic.TcCoe Idealize.SL.Sem
open Idealize.ShloMosaic.ValueIdx

variable (x0 : (⟨S40000x128, .f32⟩ : BufTy).Contents (Elt Ideal)) (x1 : (⟨S2x640000, .i32⟩ : BufTy).Contents (Elt Ideal))
  (x2 x3 : (⟨S640000, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-! The index functions of the two matrix products and of the bias's two spreadings, at the entry (p, q):
    the left operand is read along row p, the right along column q, and the bias at q alone. -/

/-- Term k of the first product reads the left operand at (p, k). -/
theorem lidx_v0_ix2 (p : Fin 40000) (q k : Fin 128) : lidx_main_v0 (ix2 p q) k = ix2 p k :=
  funext fun a => Fin.ext (by match a with | ⟨0, _⟩ => rfl | ⟨1, _⟩ => rfl)

/-- Term k of the first product reads the right operand at (k, q). -/
theorem ridx_v0_ix2 (p : Fin 40000) (q k : Fin 128) : ridx_main_v0 (ix2 p q) k = ix2 k q :=
  funext fun a => Fin.ext (by match a with | ⟨0, _⟩ => rfl | ⟨1, _⟩ => rfl)

/-- Term k of the second product reads the left operand at (p, k). -/
theorem lidx_v4_ix2 (p : Fin 40000) (q k : Fin 128) : lidx_main_v4 (ix2 p q) k = ix2 p k :=
  funext fun a => Fin.ext (by match a with | ⟨0, _⟩ => rfl | ⟨1, _⟩ => rfl)

/-- Term k of the second product reads the right operand at (k, q). -/
theorem ridx_v4_ix2 (p : Fin 40000) (q k : Fin 128) : ridx_main_v4 (ix2 p q) k = ix2 k q :=
  funext fun a => Fin.ext (by match a with | ⟨0, _⟩ => rfl | ⟨1, _⟩ => rfl)

/-- The first bias, spread to a row and then along the nodes, is read at its column alone. -/
theorem bias_idx_v2_v1 (p : Fin 40000) (q : Fin 128) : idx_main_v1 (idx_main_v2 (ix2 p q)) = ix1 q :=
  funext fun a => Fin.ext (by match a with | ⟨0, _⟩ => rfl)

/-- The second bias, spread to a row and then along the nodes, is read at its column alone. -/
theorem bias_idx_v6_v5 (p : Fin 40000) (q : Fin 128) : idx_main_v5 (idx_main_v6 (ix2 p q)) = ix1 q :=
  funext fun a => Fin.ext (by match a with | ⟨0, _⟩ => rfl)

/-- The reference's x·w + b is the stage function, the bias given as a [1, 128] row with the same entries. -/
theorem v3_eq (b2 : FVec Ideal Cert.Spec.Row .f32) (hb : ∀ q : Fin 128, b2 (ix2 0 q) = x5 (ix1 q)) :
    val_main_v3 (F := Ideal) x0 x4 x5 = Cert.Spec.affine x0 x4 b2 := by
  funext i
  obtain ⟨p, q, rfl⟩ : ∃ (p : Fin 40000) (q : Fin 128), i = ix2 p q := ⟨i 0, i 1, eq_ix2 i⟩
  -- entry (p, q): the sum over k of x(p, k) · w(k, q), plus the bias read at column q through its two spreadings
  rw [val_main_v3_apply, val_main_v0_apply, val_main_v2_apply, val_main_v1_apply]
  simp only [lidx_v0_ix2, ridx_v0_ix2, bias_idx_v2_v1, Ideal.addf_def]
  rw [Cert.Spec.affine_ix2, Cert.Spec.affineAt, hb]

/-- The reference's exp (x·w' + b') is the stage function. -/
theorem v8_eq (b2 : FVec Ideal Cert.Spec.Row .f32) (hb : ∀ q : Fin 128, b2 (ix2 0 q) = x7 (ix1 q)) :
    val_main_v8 (F := Ideal) x0 x6 x7 = Cert.Spec.expAffine x0 x6 b2 := by
  funext i
  obtain ⟨p, q, rfl⟩ : ∃ (p : Fin 40000) (q : Fin 128), i = ix2 p q := ⟨i 0, i 1, eq_ix2 i⟩
  -- entry (p, q): the exponential of the same affine form, over the second weight matrix and bias
  rw [val_main_v8_apply, val_main_v7_apply, val_main_v4_apply, val_main_v6_apply, val_main_v5_apply]
  simp only [lidx_v4_ix2, ridx_v4_ix2, bias_idx_v6_v5, Ideal.addf_def, Ideal.hostUnary_exp_def]
  rw [Cert.Spec.expAffine_ix2, Cert.Spec.affineAt, hb]

end Cert.ReferenceIdeal.Bridge

end
-- ==== Proof.RefMsg.lean ====
/-
  The reference's messages, read index by index over whatever the two gathers returned: the edge weights are spread
  along the features, and everything else is entry by entry.
-/
import proofs.«171887_j68693706932589_1_alg».proof.Proof.Gen.ReferenceIdeal.Read
import proofs.«171887_j68693706932589_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Bridge

open Cert.ReferenceIdeal Cert.ReferenceIdeal.Gen Cert.ReferenceIdeal.Read Idealize.ShloMosaic Idealize.ShloMosaic.TcCoe Idealize.SL.Sem
open Idealize.ShloMosaic.ValueIdx

variable (x0 : (⟨S40000x128, .f32⟩ : BufTy).Contents (Elt Ideal)) (x1 : (⟨S2x640000, .i32⟩ : BufTy).Contents (Elt Ideal))
  (x2 x3 : (⟨S640000, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-! The index functions of the weights' two spreadings, at the entry (e, q): a weight is first made an [E, 1] column
    and then spread along the features, so the entry reads the weight of edge e alone. -/

/-- The mean weight under the message means is read at the edge alone. -/
theorem wm_idx_v29_v13 (e : Fin 640000) (q : Fin 128) : idx_main_v13 (idx_main_v29 (ix2 e q)) = ix1 e :=
  funext fun a => Fin.ext (by match a with | ⟨0, _⟩ => rfl)

/-- The squared mean weight under the message variances is read at the edge alone. -/
theorem wm_idx_v32_v13 (e : Fin 640000) (q : Fin 128) : idx_main_v13 (idx_main_v32 (ix2 e q)) = ix1 e :=
  funext fun a => Fin.ext (by match a with | ⟨0, _⟩ => rfl)

/-- The variance weight under the message variances is read at the edge alone. -/
theorem wv_idx_v35_v14 (e : Fin 640000) (q : Fin 128) : idx_main_v14 (idx_main_v35 (ix2 e q)) = ix1 e :=
  funext fun a => Fin.ext (by match a with | ⟨0, _⟩ => rfl)

/-- The reference's message means are the stage function of the gathered means, the weights given as an [E, 1] column. -/
theorem v30_eq (ωm : FVec Ideal Cert.Spec.EdgeCol .f32) (hm : ∀ e : Fin 640000, ωm (ix2 e 0) = x2 (ix1 e)) :
    val_main_v30 (F := Ideal) x0 x1 x2 x4 x5 = Cert.Spec.msgMean (val_main_v21 (F := Ideal) x0 x1 x4 x5) ωm := by
  funext i
  obtain ⟨e, q, rfl⟩ : ∃ (e : Fin 640000) (q : Fin 128), i = ix2 e q := ⟨i 0, i 1, eq_ix2 i⟩
  -- entry (e, q): the gathered mean at (e, q) times the weight of edge e
  rw [val_main_v30_apply, val_main_v29_apply, val_main_v13_apply]
  simp only [wm_idx_v29_v13, Ideal.mulf_def]
  rw [Cert.Spec.msgMean_ix2, hm]

/-- The reference's message variances are the stage function of the two gathers. -/
theorem v37_eq (ωm ωv : FVec Ideal Cert.Spec.EdgeCol .f32) (hm : ∀ e : Fin 640000, ωm (ix2 e 0) = x2 (ix1 e))
    (hv : ∀ e : Fin 640000, ωv (ix2 e 0) = x3 (ix1 e)) :
    val_main_v37 (F := Ideal) x0 x1 x2 x3 x4 x5 x6 x7
      = Cert.Spec.msgVar (val_main_v21 (F := Ideal) x0 x1 x4 x5) (val_main_v28 (F := Ideal) x0 x1 x6 x7) ωm ωv := by
  funext i
  obtain ⟨e, q, rfl⟩ : ∃ (e : Fin 640000) (q : Fin 128), i = ix2 e q := ⟨i 0, i 1, eq_ix2 i⟩
  -- entry (e, q): ωm(e)² times the gathered variance, plus the gathered mean squared times ωv(e)
  rw [val_main_v37_apply, val_main_v33_apply, val_main_v36_apply, val_main_v32_apply, val_main_v31_apply,
    val_main_v13_apply, val_main_v34_apply, val_main_v35_apply, val_main_v14_apply]
  simp only [wm_idx_v32_v13, wv_idx_v35_v14, Ideal.mulf_def, Ideal.addf_def]
  rw [Cert.Spec.msgVar_ix2, hm, hv]

end Cert.ReferenceIdeal.Bridge

end
-- ==== Proof.RefNorm.lean ====
/-
  The reference's last stage, read index by index over whatever the three scatter-adds returned: the degree is clamped
  at one, the aggregates are divided by it (by its square), and each row of the mean is normalised: its mean and its
  variance are sums along the row divided by 128, which on every extended real is the product with 2⁻⁷.
-/
import proofs.«171887_j68693706932589_1_alg».proof.Proof.Gen.ReferenceIdeal.Read
import proofs.«171887_j68693706932589_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Bridge

open Cert.ReferenceIdeal Cert.ReferenceIdeal.Gen Cert.ReferenceIdeal.Read Idealize.ShloMosaic Idealize.ShloMosaic.TcCoe Idealize.SL.Sem
open Idealize.ShloMosaic.ValueIdx

variable (x0 : (⟨S40000x128, .f32⟩ : BufTy).Contents (Elt Ideal)) (x1 : (⟨S2x640000, .i32⟩ : BufTy).Contents (Elt Ideal))
  (x2 x3 : (⟨S640000, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-! ## The reference's index maps, read at coordinates

  A broadcast of a vector into a column reads the vector at the row; a broadcast of a column into the matrix reads the
  column at (row, 0); a row sum reads the matrix along the row; a broadcast of a row into the matrix reads (0, column). -/

theorem idx_v49_ix2 (p : Fin 40000) : idx_main_v49 (ix2 p (0 : Fin 1)) = ix1 p :=
  funext fun a => Fin.ext (by match a with | ⟨0, _⟩ => rfl)
theorem idx_v56_ix2 (p : Fin 40000) : idx_main_v56 (ix2 p (0 : Fin 1)) = ix1 p :=
  funext fun a => Fin.ext (by match a with | ⟨0, _⟩ => rfl)
theorem idx_v63_ix2 (p : Fin 40000) : idx_main_v63 (ix2 p (0 : Fin 1)) = ix1 p :=
  funext fun a => Fin.ext (by match a with | ⟨0, _⟩ => rfl)

theorem idx_v50_ix2 (p : Fin 40000) (q : Fin 128) : idx_main_v50 (ix2 p q) = ix2 p (0 : Fin 1) :=
  funext fun a => Fin.ext (by match a with | ⟨0, _⟩ => rfl | ⟨1, _⟩ => rfl)
theorem idx_v53_ix2 (p : Fin 40000) (q : Fin 128) : idx_main_v53 (ix2 p q) = ix2 p (0 : Fin 1) :=
  funext fun a => Fin.ext (by match a with | ⟨0, _⟩ => rfl | ⟨1, _⟩ => rfl)
theorem idx_v59_ix2 (p : Fin 40000) (q : Fin 128) : idx_main_v59 (ix2 p q) = ix2 p (0 : Fin 1) :=
  funext fun a => Fin.ext (by match a with | ⟨0, _⟩ => rfl | ⟨1, _⟩ => rfl)
theorem idx_v66_ix2 (p : Fin 40000) (q : Fin 128) : idx_main_v66 (ix2 p q) = ix2 p (0 : Fin 1) :=
  funext fun a => Fin.ext (by match a with | ⟨0, _⟩ => rfl | ⟨1, _⟩ => rfl)
theorem idx_v71_ix2 (p : Fin 40000) (q : Fin 128) : idx_main_v71 (ix2 p q) = ix2 p (0 : Fin 1) :=
  funext fun a => Fin.ext (by match a with | ⟨0, _⟩ => rfl | ⟨1, _⟩ => rfl)

theorem idx_v55_ix1 (p : Fin 40000) (k : Fin 128) : idx_main_v55 (ix1 p) k = ix2 p k :=
  funext fun a => Fin.ext (by match a with | ⟨0, _⟩ => rfl | ⟨1, _⟩ => rfl)
theorem idx_v62_ix1 (p : Fin 40000) (k : Fin 128) : idx_main_v62 (ix1 p) k = ix2 p k :=
  funext fun a => Fin.ext (by match a with | ⟨0, _⟩ => rfl | ⟨1, _⟩ => rfl)

theorem idx_v74_ix2 (p : Fin 40000) (q : Fin 128) : idx_main_v74 (ix2 p q) = ix2 (0 : Fin 1) q :=
  funext fun a => Fin.ext (by match a with | ⟨0, _⟩ => rfl | ⟨1, _⟩ => rfl)
theorem idx_v77_ix2 (p : Fin 40000) (q : Fin 128) : idx_main_v77 (ix2 p q) = ix2 (0 : Fin 1) q :=
  funext fun a => Fin.ext (by match a with | ⟨0, _⟩ => rfl | ⟨1, _⟩ => rfl)
theorem idx_v73_ix2 (q : Fin 128) : idx_main_v73 (ix2 (0 : Fin 1) q) = ix1 q :=
  funext fun a => Fin.ext (by match a with | ⟨0, _⟩ => rfl)
theorem idx_v76_ix2 (q : Fin 128) : idx_main_v76 (ix2 (0 : Fin 1) q) = ix1 q :=
  funext fun a => Fin.ext (by match a with | ⟨0, _⟩ => rfl)

/-! ## The stages at a node p and a feature q -/

/-- The degree clamped at one, as the [N, 1] column the reference broadcasts: max 1 deg(p). -/
theorem clampedDeg_at (d2 : FVec Ideal Cert.Spec.NodeCol .f32)
    (hd : ∀ p : Fin 40000, d2 (ix2 p 0) = val_main_v47 (F := Ideal) x1 (ix1 p)) (p : Fin 40000) :
    val_main_v49 (F := Ideal) x1 (ix2 p (0 : Fin 1)) = Cert.Spec.clampDeg d2 p := by
  rw [val_main_v49_apply, idx_v49_ix2, val_main_v48_apply, val_main_call0_v1_apply, val_main_call0_v0_apply,
    val_main_cst_6_apply, ← hd p]
  simp only [Ideal.maximumf_def, Ideal.ofBits_def]
  rfl

/-- The mean aggregate over the clamped degree: a(p, q) / max 1 deg(p). -/
theorem scaled_at (d2 : FVec Ideal Cert.Spec.NodeCol .f32)
    (hd : ∀ p : Fin 40000, d2 (ix2 p 0) = val_main_v47 (F := Ideal) x1 (ix1 p)) (p : Fin 40000) (q : Fin 128) :
    val_main_v51 (F := Ideal) x0 x1 x2 x4 x5 (ix2 p q)
      = Cert.Spec.scaled (val_main_v40 (F := Ideal) x0 x1 x2 x4 x5) d2 p q := by
  rw [val_main_v51_apply, val_main_v50_apply, idx_v50_ix2, clampedDeg_at x1 d2 hd p]
  simp only [Ideal.hostDivf_def]
  rfl

/-- The row mean: the host's sum along row p starts from the zero word, which is 0, and its division by the word of
    128 is the product with 2⁻⁷. -/
theorem rowMean_at (d2 : FVec Ideal Cert.Spec.NodeCol .f32)
    (hd : ∀ p : Fin 40000, d2 (ix2 p 0) = val_main_v47 (F := Ideal) x1 (ix1 p)) (p : Fin 40000) :
    val_main_v58 (F := Ideal) x0 x1 x2 x4 x5 (ix2 p (0 : Fin 1))
      = Cert.Spec.rowMean (val_main_v40 (F := Ideal) x0 x1 x2 x4 x5) d2 p := by
  rw [val_main_v58_apply, val_main_v56_apply, idx_v56_ix2, val_main_v55_apply, val_main_cst_7_apply,
    val_main_v57_apply, val_main_cst_8_apply]
  simp only [Ideal.hostDivf_def, Ideal.ofBits_def, Ideal.ofBits_zero_f32, zero_add]
  rw [Cert.Spec.div_c128]
  unfold Cert.Spec.rowMean
  refine congrArg (· * Cert.Spec.inv128) (Finset.sum_congr rfl fun k _ => ?_)
  rw [idx_v55_ix1, scaled_at x0 x1 x2 x4 x5 d2 hd p k]

/-- The centred value the reference squares for the variance: o(p, q) − μ(p). -/
theorem centred_for_var (d2 : FVec Ideal Cert.Spec.NodeCol .f32)
    (hd : ∀ p : Fin 40000, d2 (ix2 p 0) = val_main_v47 (F := Ideal) x1 (ix1 p)) (p : Fin 40000) (q : Fin 128) :
    val_main_v60 (F := Ideal) x0 x1 x2 x4 x5 (ix2 p q)
      = Cert.Spec.centred (val_main_v40 (F := Ideal) x0 x1 x2 x4 x5) d2 p q := by
  rw [val_main_v60_apply, val_main_v59_apply, idx_v59_ix2, scaled_at x0 x1 x2 x4 x5 d2 hd p q,
    rowMean_at x0 x1 x2 x4 x5 d2 hd p]
  simp only [Ideal.subf_def]
  rfl

/-- The centred value the reference scales for the output: the same difference, computed a second time. -/
theorem centred_for_out (d2 : FVec Ideal Cert.Spec.NodeCol .f32)
    (hd : ∀ p : Fin 40000, d2 (ix2 p 0) = val_main_v47 (F := Ideal) x1 (ix1 p)) (p : Fin 40000) (q : Fin 128) :
    val_main_v67 (F := Ideal) x0 x1 x2 x4 x5 (ix2 p q)
      = Cert.Spec.centred (val_main_v40 (F := Ideal) x0 x1 x2 x4 x5) d2 p q := by
  rw [val_main_v67_apply, val_main_v66_apply, idx_v66_ix2, scaled_at x0 x1 x2 x4 x5 d2 hd p q,
    rowMean_at x0 x1 x2 x4 x5 d2 hd p]
  simp only [Ideal.subf_def]
  rfl

/-- The row variance: the sum of the squared centred values along row p, times 2⁻⁷. -/
theorem rowVar_at (d2 : FVec Ideal Cert.Spec.NodeCol .f32)
    (hd : ∀ p : Fin 40000, d2 (ix2 p 0) = val_main_v47 (F := Ideal) x1 (ix1 p)) (p : Fin 40000) :
    val_main_v65 (F := Ideal) x0 x1 x2 x4 x5 (ix2 p (0 : Fin 1))
      = Cert.Spec.rowVar (val_main_v40 (F := Ideal) x0 x1 x2 x4 x5) d2 p := by
  rw [val_main_v65_apply, val_main_v63_apply, idx_v63_ix2, val_main_v62_apply, val_main_cst_9_apply,
    val_main_v64_apply, val_main_cst_10_apply]
  simp only [Ideal.hostDivf_def, Ideal.ofBits_def, Ideal.ofBits_zero_f32, zero_add]
  rw [Cert.Spec.div_c128]
  unfold Cert.Spec.rowVar
  refine congrArg (· * Cert.Spec.inv128) (Finset.sum_congr rfl fun k _ => ?_)
  rw [idx_v62_ix1, val_main_v61_apply, centred_for_var x0 x1 x2 x4 x5 d2 hd p k]
  simp only [Ideal.mulf_def]

/-- The reference's normalised mean is the stage function of the mean aggregate, the degree given as an [N, 1] column
    and the scale and shift as [1, 128] rows. -/
theorem v78_eq (d2 : FVec Ideal Cert.Spec.NodeCol .f32) (γ2 β2 : FVec Ideal Cert.Spec.Row .f32)
    (hd : ∀ p : Fin 40000, d2 (ix2 p 0) = val_main_v47 (F := Ideal) x1 (ix1 p))
    (hγ : ∀ q : Fin 128, γ2 (ix2 0 q) = x8 (ix1 q)) (hβ : ∀ q : Fin 128, β2 (ix2 0 q) = x9 (ix1 q)) :
    val_main_v78 (F := Ideal) x0 x1 x2 x4 x5 x8 x9
      = Cert.Spec.normMean (val_main_v40 (F := Ideal) x0 x1 x2 x4 x5) d2 γ2 β2 := by
  funext i
  obtain ⟨p, q, rfl⟩ : ∃ (p : Fin 40000) (q : Fin 128), i = ix2 p q := ⟨i 0, i 1, eq_ix2 i⟩
  rw [val_main_v78_apply, val_main_v75_apply, val_main_v72_apply, centred_for_out x0 x1 x2 x4 x5 d2 hd p q,
    val_main_v71_apply, idx_v71_ix2, val_main_v70_apply, val_main_v69_apply, rowVar_at x0 x1 x2 x4 x5 d2 hd p,
    val_main_v68_apply, val_main_cst_11_apply, val_main_v74_apply, idx_v74_ix2, val_main_v73_apply, idx_v73_ix2,
    val_main_v77_apply, idx_v77_ix2, val_main_v76_apply, idx_v76_ix2, ← hγ q, ← hβ q]
  simp only [Ideal.addf_def, Ideal.mulf_def, Ideal.hostUnary_rsqrt_def, Ideal.ofBits_def]
  rfl

/-- The reference's variance output is the stage function of the variance aggregate. -/
theorem v54_eq (d2 : FVec Ideal Cert.Spec.NodeCol .f32)
    (hd : ∀ p : Fin 40000, d2 (ix2 p 0) = val_main_v47 (F := Ideal) x1 (ix1 p)) :
    val_main_v54 (F := Ideal) x0 x1 x2 x3 x4 x5 x6 x7
      = Cert.Spec.normVar (val_main_v43 (F := Ideal) x0 x1 x2 x3 x4 x5 x6 x7) d2 := by
  funext i
  obtain ⟨p, q, rfl⟩ : ∃ (p : Fin 40000) (q : Fin 128), i = ix2 p q := ⟨i 0, i 1, eq_ix2 i⟩
  rw [val_main_v54_apply, val_main_v53_apply, idx_v53_ix2, val_main_v52_apply, clampedDeg_at x1 d2 hd p]
  simp only [Ideal.hostDivf_def, Ideal.mulf_def]
  rfl

end Cert.ReferenceIdeal.Bridge

end
-- ==== Proof.RValue.lean ====
/-
  The reference's two results are the same functions of the arguments as the idealized kernel's. Stage by stage the
  reference's values are the stage functions (the two linear heads, the messages, the last stage); the gathers and
  the scatter-adds are the same host operations on both sides, applied to equal arrays at the same index columns.
-/
import proofs.«171887_j68693706932589_1_alg».proof.Proof.KValue
import proofs.«171887_j68693706932589_1_alg».proof.Proof.RefHeads
import proofs.«171887_j68693706932589_1_alg».proof.Proof.RefMsg
import proofs.«171887_j68693706932589_1_alg».proof.Proof.RefNorm
import Idealize.ShloMosaic.Lib.ValueLayout

set_option maxRecDepth 16384

noncomputable section

namespace Cert.ReferenceIdeal.Whole

open Cert.ReferenceIdeal Cert.ReferenceIdeal.Gen Cert.ReferenceIdeal.Read Idealize.ShloMosaic Idealize.ShloMosaic.TcCoe Idealize.SL.Sem
open Idealize.ShloMosaic.ValueIdx

variable (x0 : (⟨S40000x128, .f32⟩ : BufTy).Contents (Elt Ideal)) (x1 : (⟨S2x640000, .i32⟩ : BufTy).Contents (Elt Ideal))
  (x2 x3 : (⟨S640000, .f32⟩ : BufTy).Contents (Elt Ideal)) (x4 : (⟨S128x128, .f32⟩ : BufTy).Contents (Elt Ideal))
  (x5 : (⟨S128, .f32⟩ : BufTy).Contents (Elt Ideal)) (x6 : (⟨S128x128, .f32⟩ : BufTy).Contents (Elt Ideal))
  (x7 x8 x9 : (⟨S128, .f32⟩ : BufTy).Contents (Elt Ideal))

/-! ## The shared host pieces are the same terms on both sides -/

/-- The edges' target-node column. -/
theorem tgt_eq : val_main_v39 (F := Ideal) x1 = Cert.KernelIdeal.Glue.tgtIdx (F := Ideal) x1 := rfl
theorem tgt_eq' : val_main_v42 (F := Ideal) x1 = Cert.KernelIdeal.Glue.tgtIdx (F := Ideal) x1 := rfl

/-- The edges' source-node column. -/
theorem src_eq : val_main_v20 (F := Ideal) x1 = Cert.KernelIdeal.Glue.srcIdx (F := Ideal) x1 := rfl
theorem src_eq' : val_main_v27 (F := Ideal) x1 = Cert.KernelIdeal.Glue.srcIdx (F := Ideal) x1 := rfl

/-- The degree. -/
theorem degree_eq : val_main_v47 (F := Ideal) x1 = Cert.KernelIdeal.Glue.degree (F := Ideal) x1 := rfl

/-! ## Reading the reshaped vectors -/

theorem asRow_apply (v : (⟨S128, .f32⟩ : BufTy).Contents (Elt Ideal)) (q : Fin 128) :
    Cert.KernelIdeal.Whole.asRow v (ix2 0 q) = v (ix1 q) :=
  shapeCast_a_1a_apply v _ 0 q

theorem asEdgeCol_apply (v : (⟨S640000, .f32⟩ : BufTy).Contents (Elt Ideal)) (e : Fin 640000) :
    Cert.KernelIdeal.Whole.asEdgeCol v (ix2 e 0) = v (ix1 e) :=
  Cert.KernelIdeal.Glue.shapeCast_col_apply v _ e 0

theorem degCol_apply (p : Fin 40000) :
    Cert.KernelIdeal.Whole.degCol x1 (ix2 p 0) = val_main_v47 (F := Ideal) x1 (ix1 p) := by
  rw [degree_eq]
  exact Cert.KernelIdeal.Glue.shapeCast_col_apply _ _ p 0

/-! ## Stage by stage -/

theorem nodeMean_eq : val_main_v3 (F := Ideal) x0 x4 x5 = Cert.KernelIdeal.Whole.nodeMeanFn x0 x4 x5 :=
  Cert.ReferenceIdeal.Bridge.v3_eq x0 x4 x5 _ (asRow_apply x5)

theorem nodeVar_eq : val_main_v8 (F := Ideal) x0 x6 x7 = Cert.KernelIdeal.Whole.nodeVarFn x0 x6 x7 :=
  Cert.ReferenceIdeal.Bridge.v8_eq x0 x6 x7 _ (asRow_apply x7)

theorem gatherMean_eq : val_main_v21 (F := Ideal) x0 x1 x4 x5
    = Cert.KernelIdeal.Glue.atSources (F := Ideal) x1 (Cert.KernelIdeal.Whole.nodeMeanFn x0 x4 x5) := by
  unfold val_main_v21
  rw [nodeMean_eq, src_eq]
  rfl

theorem gatherVar_eq : val_main_v28 (F := Ideal) x0 x1 x6 x7
    = Cert.KernelIdeal.Glue.atSources (F := Ideal) x1 (Cert.KernelIdeal.Whole.nodeVarFn x0 x6 x7) := by
  unfold val_main_v28
  rw [nodeVar_eq, src_eq']
  rfl

theorem edgeMean_eq : val_main_v30 (F := Ideal) x0 x1 x2 x4 x5 = Cert.KernelIdeal.Whole.edgeMeanFn x0 x1 x2 x4 x5 := by
  rw [Cert.ReferenceIdeal.Bridge.v30_eq x0 x1 x2 x4 x5 _ (asEdgeCol_apply x2), gatherMean_eq]
  rfl

theorem edgeVar_eq : val_main_v37 (F := Ideal) x0 x1 x2 x3 x4 x5 x6 x7 = Cert.KernelIdeal.Whole.edgeVarFn x0 x1 x2 x3 x4 x5 x6 x7 := by
  rw [Cert.ReferenceIdeal.Bridge.v37_eq x0 x1 x2 x3 x4 x5 x6 x7 _ _ (asEdgeCol_apply x2) (asEdgeCol_apply x3), gatherMean_eq, gatherVar_eq]
  rfl

theorem meanAgg_eq : val_main_v40 (F := Ideal) x0 x1 x2 x4 x5
    = Cert.KernelIdeal.Glue.sumAtTargets (F := Ideal) x1 (Cert.KernelIdeal.Whole.edgeMeanFn x0 x1 x2 x4 x5) := by
  unfold val_main_v40
  rw [edgeMean_eq, tgt_eq]
  rfl

theorem varAgg_eq : val_main_v43 (F := Ideal) x0 x1 x2 x3 x4 x5 x6 x7
    = Cert.KernelIdeal.Glue.sumAtTargets (F := Ideal) x1 (Cert.KernelIdeal.Whole.edgeVarFn x0 x1 x2 x3 x4 x5 x6 x7) := by
  unfold val_main_v43
  rw [edgeVar_eq, tgt_eq']
  rfl

/-- The reference's first result is the kernel's function of the arguments. -/
theorem meanOut_eq : val_main_v78 (F := Ideal) x0 x1 x2 x4 x5 x8 x9 = Cert.KernelIdeal.Whole.meanOut x0 x1 x2 x4 x5 x8 x9 := by
  rw [Cert.ReferenceIdeal.Bridge.v78_eq x0 x1 x2 x4 x5 x8 x9 (Cert.KernelIdeal.Whole.degCol x1) (Cert.KernelIdeal.Whole.asRow x8) (Cert.KernelIdeal.Whole.asRow x9)
    (degCol_apply x1) (asRow_apply x8) (asRow_apply x9), meanAgg_eq]
  rfl

/-- The reference's second result is the kernel's function of the arguments. -/
theorem varOut_eq : val_main_v54 (F := Ideal) x0 x1 x2 x3 x4 x5 x6 x7 = Cert.KernelIdeal.Whole.varOut x0 x1 x2 x3 x4 x5 x6 x7 := by
  rw [Cert.ReferenceIdeal.Bridge.v54_eq x0 x1 x2 x3 x4 x5 x6 x7 (Cert.KernelIdeal.Whole.degCol x1) (degCol_apply x1), varAgg_eq]
  rfl

end Cert.ReferenceIdeal.Whole

end
-- ==== Proof.lean ====
/-
  The idealized kernel and the idealized reference compute one function of the arguments on the extended reals.

  The layer: node features x go through two linear heads, a mean head h = x·w + b and a variance head
  v = exp (x·w' + b'); along every edge the source node's (h, v) and the edge's weight (ωm, ωv) give a message
  with mean h·ωm and variance ωm²·v + h²·ωv; the messages are summed into their target nodes, the sums divided by
  the node's degree clamped at one (the variance by its square), and the mean is layer-normalised row by row with a
  scale and a shift.

  The kernel runs the heads, the messages and the normalisation as three launches over blocks of 4000 rows, with
  the gathers and the scatter-adds as host operations between them; the reference is host operations only. Launch
  by launch the blocks tile their arrays and every block's result is the rows of one whole-array function, so each
  launch's results are the stage functions of Proof/Spec.lean (Proof/Region0, Region1, Region2 with the host
  stretches read in Proof/Glue: Proof/KValue); the reference's stages are the same functions index by index
  (Proof/RefHeads, RefMsg, RefNorm: Proof/RValue), the matrix products both the plain sum over the shared axis, the
  row sums the same sums, and the reference's division by 128 the kernel's product with 2⁻⁷ on every extended real.
  The gathers and scatter-adds are never opened: the same operation on equal arrays at the same index columns.
  No finiteness of the inputs is used. The ideal pass rewrote nothing, so the idealization claim has no conjunct.
-/
import proofs.«171887_j68693706932589_1_alg».proof.Defs
import proofs.«171887_j68693706932589_1_alg».proof.Proof.Gen.Kernel
import proofs.«171887_j68693706932589_1_alg».proof.Proof.Gen.Kernel.Skeleton
import proofs.«171887_j68693706932589_1_alg».proof.Proof.Gen.Kernel.Launch
import proofs.«171887_j68693706932589_1_alg».proof.Proof.Gen.Kernel.Points
import proofs.«171887_j68693706932589_1_alg».proof.Proof.Gen.Kernel.Frame
import proofs.«171887_j68693706932589_1_alg».proof.Proof.Gen.KernelIdeal
import proofs.«171887_j68693706932589_1_alg».proof.Proof.Gen.KernelIdeal.Skeleton
import proofs.«171887_j68693706932589_1_alg».proof.Proof.Gen.KernelIdeal.Launch
import proofs.«171887_j68693706932589_1_alg».proof.Proof.Gen.KernelIdeal.Points
import proofs.«171887_j68693706932589_1_alg».proof.Proof.Gen.KernelIdeal.Frame
import proofs.«171887_j68693706932589_1_alg».proof.Proof.Gen.ReferenceIdeal
import proofs.«171887_j68693706932589_1_alg».proof.Proof.Gen.Pre_finite_inputs
import proofs.«171887_j68693706932589_1_alg».proof.Proof.Gen.ReferenceIdeal.Run
import proofs.«171887_j68693706932589_1_alg».proof.Proof.Gen.ReferenceIdeal.Read
import proofs.«171887_j68693706932589_1_alg».proof.Proof.KValue
import proofs.«171887_j68693706932589_1_alg».proof.Proof.RValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the same two arrays: the kernel's
    results are the composed stage functions of its arguments, and so are the reference's. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v78_eq, Cert.ReferenceIdeal.Whole.meanOut_eq, h0, h1, h2, h4, h5, h8, h9]
  · obtain ⟨h0, h1, h2, h3, h4, h5, h6, h7, h8, h9⟩ := hagree c
    rw [Cert.ReferenceIdeal.Read.val_main_v54_eq, Cert.ReferenceIdeal.Whole.varOut_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
